-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S156250x512 : Shape := ⟨2, ![156250, 512]⟩
abbrev S156250 : Shape := ⟨1, ![156250]⟩
abbrev S500x512 : Shape := ⟨2, ![500, 512]⟩
abbrev S512x512 : Shape := ⟨2, ![512, 512]⟩
abbrev S512 : Shape := ⟨1, ![512]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S156250x512 : S_.BroadcastsInDim S156250x512 (![] : Fin 0 → Fin S156250x512.rank)
  reducesTo_S156250x512_S_d0_1 : S156250x512.ReducesTo [0, 1] S_
  bcast_S_S500x512 : S_.BroadcastsInDim S500x512 (![] : Fin 0 → Fin S500x512.rank)
  reducesTo_S500x512_S_d0_1 : S500x512.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S156250 : S_.BroadcastsInDim S156250 (![] : Fin 0 → Fin S156250.rank)
  reducesTo_S156250_S_d0 : S156250.ReducesTo [0] S_

variable [Facts]

def fn_part2 {F : FTy → Type} [FloatOps F] (main_v27 : IVec S_ 1) (main_v32 : IVec S156250 1) (main_c_12 : IVec S_ 1) : IVec S_ 1 :=
  let main_v33 : IVec S_ 1 := (fun x v => Host.reduce IntOp.andi x v reducesTo_S156250_S_d0 h_S_) main_v32 main_c_12
  let main_v34 : IVec S_ 1 := andi main_v27 main_v33
  main_v34

def fn_part1 {F : FTy → Type} [FloatOps F] (main_arg2 : IVec S156250 32) (main_arg3 : IVec S156250 32) (main_arg6 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg6
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_c_8 : IVec S_ 32 := constantI S_ 32 0#32
  let main_v24 : IVec S156250 32 := broadcastInDim S156250 ![] bcast_S_S156250 main_c_8
  let main_v25 : IVec S156250 1 := cmpi .sge main_arg2 main_v24
  let main_c_9 : IVec S_ 1 := constantI S_ 1 1#1
  let main_v26 : IVec S_ 1 := (fun x v => Host.reduce IntOp.andi x v reducesTo_S156250_S_d0 h_S_) main_v25 main_c_9
  let main_v27 : IVec S_ 1 := andi main_v23 main_v26
  let main_c_10 : IVec S_ 32 := constantI S_ 32 0#32
  let main_v28 : IVec S156250 32 := broadcastInDim S156250 ![] bcast_S_S156250 main_c_10
  let main_v29 : IVec S156250 1 := cmpi .sge main_arg3 main_v28
  let main_c_11 : IVec S_ 32 := constantI S_ 32 500#32
  let main_v30 : IVec S156250 32 := broadcastInDim S156250 ![] bcast_S_S156250 main_c_11
  let main_v31 : IVec S156250 1 := cmpi .slt main_arg3 main_v30
  let main_v32 : IVec S156250 1 := andi main_v29 main_v31
  let main_c_12 : IVec S_ 1 := constantI S_ 1 1#1
  fn_part2 (F := F) main_v27 main_v32 main_c_12

def fn {F : FTy → Type} [FloatOps F] (main_arg0 : FVec F S100000x512 .f32) (main_arg1 : FVec F S156250x512 .f32) (main_arg2 : IVec S156250 32) (main_arg3 : IVec S156250 32) (main_arg4 : FVec F S500x512 .f32) (main_arg5 : FVec F S512x512 .f32) (main_arg6 : FVec F S512 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S156250x512 .f32 := Host.absf main_arg1
  let main_cst_0 : FVec F S_ .f32 := constant S_ .f32 0x7F800000#32
  let main_v5 : FVec F S156250x512 .f32 := broadcastInDim S156250x512 ![] bcast_S_S156250x512 main_cst_0
  let main_v6 : IVec S156250x512 1 := cmpf .olt main_v4 main_v5
  let main_c_1 : IVec S_ 1 := constantI S_ 1 1#1
  let main_v7 : IVec S_ 1 := (fun x v => Host.reduce IntOp.andi x v reducesTo_S156250x512_S_d0_1 h_S_) main_v6 main_c_1
  let main_v8 : IVec S_ 1 := andi main_v3 main_v7
  let main_v9 : FVec F S500x512 .f32 := Host.absf main_arg4
  let main_cst_2 : FVec F S_ .f32 := constant S_ .f32 0x7F800000#32
  let main_v10 : FVec F S500x512 .f32 := broadcastInDim S500x512 ![] bcast_S_S500x512 main_cst_2
  let main_v11 : IVec S500x512 1 := cmpf .olt main_v9 main_v10
  let main_c_3 : IVec S_ 1 := constantI S_ 1 1#1
  let main_v12 : IVec S_ 1 := (fun x v => Host.reduce IntOp.andi x v reducesTo_S500x512_S_d0_1 h_S_) main_v11 main_c_3
  let main_v13 : IVec S_ 1 := andi main_v8 main_v12
  let main_v14 : FVec F S512x512 .f32 := Host.absf main_arg5
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg2 main_arg3 main_arg6 main_v13 main_v16
-- ==== Kernel.lean ====
abbrev S100000x512 : Shape := ⟨2, ![100000, 512]⟩
abbrev S156250x512 : Shape := ⟨2, ![156250, 512]⟩
abbrev S156250 : Shape := ⟨1, ![156250]⟩
abbrev S500x512 : Shape := ⟨2, ![500, 512]⟩
abbrev S512x512 : Shape := ⟨2, ![512, 512]⟩
abbrev S512 : Shape := ⟨1, ![512]⟩
abbrev S156250x1 : Shape := ⟨2, ![156250, 1]⟩
abbrev S_ : Shape := ⟨0, ![]⟩
abbrev S1x512 : Shape := ⟨2, ![1, 512]⟩
abbrev S1024x512 : Shape := ⟨2, ![1024, 512]⟩
abbrev S1024x1 : Shape := ⟨2, ![1024, 1]⟩

abbrev nBuf : Space → Nat
  | .hbm => 18
  | .vmem => 11
  | .smem => 0
  | _ => 0

abbrev bufTy : (tb : Table) → Fin (tcTables nBuf tb) → BufTy
  | .hbm, ⟨0, _⟩ => ⟨S100000x512, .f32⟩
  | .hbm, ⟨1, _⟩ => ⟨S156250x512, .f32⟩
  | .hbm, ⟨2, _⟩ => ⟨S156250, .i32⟩
  | .hbm, ⟨3, _⟩ => ⟨S156250, .i32⟩
  | .hbm, ⟨4, _⟩ => ⟨S500x512, .f32⟩
  | .hbm, ⟨5, _⟩ => ⟨S512x512, .f32⟩
  | .hbm, ⟨6, _⟩ => ⟨S512, .f32⟩
  | .hbm, ⟨7, _⟩ => ⟨S156250x1, .i32⟩
  | .hbm, ⟨8, _⟩ => ⟨S156250x512, .f32⟩
  | .hbm, ⟨9, _⟩ => ⟨S_, .i32⟩
  | .hbm, ⟨10, _⟩ => ⟨S_, .f32⟩
  | .hbm, ⟨11, _⟩ => ⟨S512x512, .f32⟩
  | .hbm, ⟨12, _⟩ => ⟨S512x512, .bf16⟩
  | .hbm, ⟨13, _⟩ => ⟨S156250x1, .i32⟩
  | .hbm, ⟨14, _⟩ => ⟨S512x512, .f32⟩
  | .hbm, ⟨15, _⟩ => ⟨S512x512, .bf16⟩
  | .hbm, ⟨16, _⟩ => ⟨S1x512, .f32⟩
  | .hbm, ⟨17, _⟩ => ⟨S156250x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x1, .i32⟩
  | .local _ .vmem, ⟨5, _⟩ => ⟨S1024x1, .i32⟩
  | .local _ .vmem, ⟨6, _⟩ => ⟨S512x512, .bf16⟩
  | .local _ .vmem, ⟨7, _⟩ => ⟨S512x512, .bf16⟩
  | .local _ .vmem, ⟨8, _⟩ => ⟨S1x512, .f32⟩
  | .local _ .vmem, ⟨9, _⟩ => ⟨S1024x512, .f32⟩
  | .local _ .vmem, ⟨10, _⟩ => ⟨S1024x512, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_v0 : Ref sig .tc := ⟨.hbm, 8, rfl⟩
abbrev main_c : Ref sig .tc := ⟨.hbm, 9, rfl⟩
abbrev main_call1_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![153], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S156250_S156250x1_0 : S156250.BroadcastsInDim S156250x1 (![0] : Fin 1 → Fin S156250x1.rank)
  pads_S500x512_S512x512_0120_000 : S500x512.Pads (![0, 0] : Fin 2 → Nat) ![12, 0] ![0, 0] S512x512
  h_S_ : 0 < S_.numel
  bitsLt_bf16_f32 : FTy.bits .bf16 < FTy.bits .f32
  shapeCasts_S156250_S156250x1 : S156250.ShapeCasts S156250x1
  transposes_S512x512_S512x512_1_0 : S512x512.Transposes [1, 0] S512x512
  shapeCasts_S512_S1x512 : S512.ShapeCasts S1x512
  iota_S1024x512_d1_w32 : S1024x512.Iotas .tc 32 [1]
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x512 : S1024x1.Broadcasts S1024x512
  natLt_1_32 : 1 < 32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  gather_S100000x512_S156250x1_S156250x512_1_0_n_n_0_1_1512_wf : GatherDims.WF S100000x512 S156250x1 S156250x512 [1] [0] [] [0] [] 1 ![1, 512]
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S1024x512.size a < S156250x512.size a
  hwx0_0 : ∀ i : grid0.Coords, EltTy.bits .f32 = 32 ∨ (Rect.unit (s := S156250x512) (fun a => cc0_transform_0 i a * S1024x512.size a) (fun a => (Pipeline.Clip.of (cc0_transform_0 i a) (S1024x512.size a) (S156250x512.size a)).extent (S1024x512.size a)) fun a => Pipeline.Clip.inb (Pipeline.Clip.ok_of (hstart0_0 i a))).WholeWords (EltTy.packing .f32)
  hwxs0_0 : ∀ i : grid0.Coords, EltTy.bits .f32 = 32 ∨ (Rect.unit (s := S1024x512) (fun _ => 0) (fun a => (Pipeline.Clip.of (cc0_transform_0 i a) (S1024x512.size a) (S156250x512.size a)).extent (S1024x512.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S1024x512.size a < S156250x512.size a
  hwx0_1 : ∀ i : grid0.Coords, EltTy.bits .f32 = 32 ∨ (Rect.unit (s := S156250x512) (fun a => cc0_transform_1 i a * S1024x512.size a) (fun a => (Pipeline.Clip.of (cc0_transform_1 i a) (S1024x512.size a) (S156250x512.size a)).extent (S1024x512.size a)) fun a => Pipeline.Clip.inb (Pipeline.Clip.ok_of (hstart0_1 i a))).WholeWords (EltTy.packing .f32)
  hwxs0_1 : ∀ i : grid0.Coords, EltTy.bits .f32 = 32 ∨ (Rect.unit (s := S1024x512) (fun _ => 0) (fun a => (Pipeline.Clip.of (cc0_transform_1 i a) (S1024x512.size a) (S156250x512.size a)).extent (S1024x512.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1024x1.size a < S156250x1.size a
  hwx0_2 : ∀ i : grid0.Coords, EltTy.bits .i32 = 32 ∨ (Rect.unit (s := S156250x1) (fun a => cc0_transform_2 i a * S1024x1.size a) (fun a => (Pipeline.Clip.of (cc0_transform_2 i a) (S1024x1.size a) (S156250x1.size a)).extent (S1024x1.size a)) fun a => Pipeline.Clip.inb (Pipeline.Clip.ok_of (hstart0_2 i a))).WholeWords (EltTy.packing .i32)
  hwxs0_2 : ∀ i : grid0.Coords, EltTy.bits .i32 = 32 ∨ (Rect.unit (s := S1024x1) (fun _ => 0) (fun a => (Pipeline.Clip.of (cc0_transform_2 i a) (S1024x1.size a) (S156250x1.size a)).extent (S1024x1.size a)) fun a => (Nat.zero_add _).trans_le (Pipeline.Clip.extent_le (Pipeline.Clip.ok_of (hstart0_2 i a)))).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .bf16 = 32 ∨ (Rect.block (s := S512x512) S512x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hstart0_6 : ∀ (i : grid0.Coords) a, cc0_transform_6 i a * S1024x512.size a < S156250x512.size a
  hwx0_6 : ∀ i : grid0.Coords, EltTy.bits .f32 = 32 ∨ (Rect.unit (s := S156250x512) (fun a => cc0_transform_6 i a * S1024x512.size a) (fun a => (Pipeline.Clip.of (cc0_transform_6 i a) (S1024x512.size a) (S156250x512.size a)).extent (S1024x512.size a)) fun a => Pipeline.Clip.inb (Pipeline.Clip.ok_of (hstart0_6 i a))).WholeWords (EltTy.packing .f32)
  hwxs0_6 : ∀ i : grid0.Coords, EltTy.bits .f32 = 32 ∨ (Rect.unit (s := S1024x512) (fun _ => 0) (fun a => (Pipeline.Clip.of (cc0_transform_6 i a) (S1024x512.size a) (S156250x512.size a)).extent (S1024x512.size a)) fun a => (Nat.zero_add _).trans_le (Pipeline.Clip.extent_le (Pipeline.Clip.ok_of (hstart0_6 i a)))).WholeWords (EltTy.packing .f32)

variable [Facts₀]

def gather_S100000x512_S156250x1_S156250x512_1_0_n_n_0_1_1512 : GatherDims S100000x512 S156250x1 S156250x512 where
  offsetDims := [1]
  collapsedSliceDims := [0]
  operandBatchingDims := []
  startIndicesBatchingDims := []
  startIndexMap := [0]
  indexVectorDim := 1
  sliceSizes := ![1, 512]
  wf := gather_S100000x512_S156250x1_S156250x512_1_0_n_n_0_1_1512_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpecClip (Memref.whole main_v0) S1024x512.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_arg1) S1024x512.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v3) S1024x1.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpec (Memref.whole main_v2) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpecClip (Memref.whole main_v7) S1024x512.size cc0_transform_6 reads0_6 true false 2 stage0_6 sem0_6
    hrank0 hreads0_6 hstart0_6 nbuf0_6 (Memref.isWhole_whole _) hwx0_6 hwxs0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x512 : Shape := ⟨2, ![100000, 512]⟩
abbrev S156250x512 : Shape := ⟨2, ![156250, 512]⟩
abbrev S156250 : Shape := ⟨1, ![156250]⟩
abbrev S500x512 : Shape := ⟨2, ![500, 512]⟩
abbrev S512x512 : Shape := ⟨2, ![512, 512]⟩
abbrev S512 : Shape := ⟨1, ![512]⟩
abbrev S_ : Shape := ⟨0, ![]⟩
abbrev S156250x1 : Shape := ⟨2, ![156250, 1]⟩
abbrev S1x512 : Shape := ⟨2, ![1, 512]⟩

abbrev nBuf : Space → Nat
  | .hbm => 34
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S156250x512, .f32⟩
  | .hbm, ⟨2, _⟩ => ⟨S156250, .i32⟩
  | .hbm, ⟨3, _⟩ => ⟨S156250, .i32⟩
  | .hbm, ⟨4, _⟩ => ⟨S500x512, .f32⟩
  | .hbm, ⟨5, _⟩ => ⟨S512x512, .f32⟩
  | .hbm, ⟨6, _⟩ => ⟨S512, .f32⟩
  | .hbm, ⟨7, _⟩ => ⟨S_, .i32⟩
  | .hbm, ⟨8, _⟩ => ⟨S156250, .i32⟩
  | .hbm, ⟨9, _⟩ => ⟨S156250, .i1⟩
  | .hbm, ⟨10, _⟩ => ⟨S_, .i32⟩
  | .hbm, ⟨11, _⟩ => ⟨S156250, .i32⟩
  | .hbm, ⟨12, _⟩ => ⟨S156250, .i32⟩
  | .hbm, ⟨13, _⟩ => ⟨S156250, .i32⟩
  | .hbm, ⟨14, _⟩ => ⟨S156250x1, .i32⟩
  | .hbm, ⟨15, _⟩ => ⟨S156250x512, .f32⟩
  | .hbm, ⟨16, _⟩ => ⟨S_, .i32⟩
  | .hbm, ⟨17, _⟩ => ⟨S156250, .i32⟩
  | .hbm, ⟨18, _⟩ => ⟨S156250, .i1⟩
  | .hbm, ⟨19, _⟩ => ⟨S_, .i32⟩
  | .hbm, ⟨20, _⟩ => ⟨S156250, .i32⟩
  | .hbm, ⟨21, _⟩ => ⟨S156250, .i32⟩
  | .hbm, ⟨22, _⟩ => ⟨S156250, .i32⟩
  | .hbm, ⟨23, _⟩ => ⟨S156250x1, .i32⟩
  | .hbm, ⟨24, _⟩ => ⟨S156250x512, .f32⟩
  | .hbm, ⟨25, _⟩ => ⟨S156250x512, .f32⟩
  | .hbm, ⟨26, _⟩ => ⟨S156250x512, .f32⟩
  | .hbm, ⟨27, _⟩ => ⟨S156250x512, .f32⟩
  | .hbm, ⟨28, _⟩ => ⟨S1x512, .f32⟩
  | .hbm, ⟨29, _⟩ => ⟨S156250x512, .f32⟩
  | .hbm, ⟨30, _⟩ => ⟨S156250x512, .f32⟩
  | .hbm, ⟨31, _⟩ => ⟨S_, .f32⟩
  | .hbm, ⟨32, _⟩ => ⟨S156250x512, .f32⟩
  | .hbm, ⟨33, _⟩ => ⟨S156250x512, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_call0_cst : Ref sig .tc := ⟨.hbm, 31, rfl⟩
abbrev main_call0_v0 : Ref sig .tc := ⟨.hbm, 32, rfl⟩
abbrev main_v20 : Ref sig .tc := ⟨.hbm, 33, rfl⟩

abbrev nD : Nat := 1
abbrev τ : Topo := Topo.v7x

variable {F : FTy → Type} [FloatOps F]

class Facts₀ : Prop where
  bcast_S_S156250 : S_.BroadcastsInDim S156250 (![] : Fin 0 → Fin S156250.rank)
  bcast_S156250_S156250x1_0 : S156250.BroadcastsInDim S156250x1 (![0] : Fin 1 → Fin S156250x1.rank)
  bcast_S512_S1x512_1 : S512.BroadcastsInDim S1x512 (![1] : Fin 1 → Fin S1x512.rank)
  bcast_S1x512_S156250x512_0_1 : S1x512.BroadcastsInDim S156250x512 (![0, 1] : Fin 2 → Fin S156250x512.rank)
  bcast_S_S156250x512 : S_.BroadcastsInDim S156250x512 (![] : Fin 0 → Fin S156250x512.rank)
  gather_S500x512_S156250x1_S156250x512_1_0_n_n_0_1_1512_wf : GatherDims.WF S500x512 S156250x1 S156250x512 [1] [0] [] [0] [] 1 ![1, 512]
  gather_S100000x512_S156250x1_S156250x512_1_0_n_n_0_1_1512_wf : GatherDims.WF S100000x512 S156250x1 S156250x512 [1] [0] [] [0] [] 1 ![1, 512]
  dot_S156250x512_S512x512_S156250x512_1_1_0_0_n_n_wf : DotDims.WF S156250x512 S512x512 S156250x512 [1] [1] [0] [0] [] []

variable [Facts₀]

def gather_S500x512_S156250x1_S156250x512_1_0_n_n_0_1_1512 : GatherDims S500x512 S156250x1 S156250x512 where
  offsetDims := [1]
  collapsedSliceDims := [0]
  operandBatchingDims := []
  startIndicesBatchingDims := []
  startIndexMap := [0]
  indexVectorDim := 1
  sliceSizes := ![1, 512]
  wf := gather_S500x512_S156250x1_S156250x512_1_0_n_n_0_1_1512_wf
def gather_S100000x512_S156250x1_S156250x512_1_0_n_n_0_1_1512 : GatherDims S100000x512 S156250x1 S156250x512 where
  offsetDims := [1]
  collapsedSliceDims := [0]
  operandBatchingDims := []
  startIndicesBatchingDims := []
  startIndexMap := [0]
  indexVectorDim := 1
  sliceSizes := ![1, 512]
  wf := gather_S100000x512_S156250x1_S156250x512_1_0_n_n_0_1_1512_wf
def dot_S156250x512_S512x512_S156250x512_1_1_0_0_n_n : DotDims S156250x512 S512x512 S156250x512 where
  lhsContracting := [1]
  rhsContracting := [1]
  lhsNonContracting := [0]
  rhsNonContracting := [0]
  lhsBatch := []
  rhsBatch := []
  wf := dot_S156250x512_S512x512_S156250x512_1_1_0_0_n_n_wf

class Facts : Prop extends Facts₀ where

variable [Facts]
-- ==== Proof.TripleBits.lean ====
/-
  One grid point of the fused layer: the body reads its six input blocks whole — the gathered node rows, the edge
  features, the edge-type column, the padded relation table, the transposed weight and the bias row —, computes the
  block of the layer's output from them, and overwrites the output block whole. Nothing else is touched: after the
  body every input block holds what it held, and the output block holds the body's one stored value, a pure function
  of the six input blocks.
-/
import proofs.«416538_j9509057593721_3_alg».proof.Proof.Gen.Kernel.Frame
import proofs.«416538_j9509057593721_3_alg».proof.Proof.Gen.Kernel.Skeleton
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's accesses: every load and the one store take the whole block -/

abbrev rE : Rect S1024x512 := Rect.unit (s := S1024x512) ![0, 0] S1024x512.size inb_S1024x512_S1024x512_0_0
abbrev rC : Rect S1024x1 := Rect.unit (s := S1024x1) ![0, 0] S1024x1.size inb_S1024x1_S1024x1_0_0
abbrev rT : Rect S512x512 := Rect.unit (s := S512x512) ![0, 0] S512x512.size inb_S512x512_S512x512_0_0
abbrev rB : Rect S1x512 := Rect.unit (s := S1x512) ![0, 0] S1x512.size inb_S1x512_S1x512_0_0

/-- What the output block holds after the body, from the six input blocks: its one store, over the whole block. -/
def outBlk (x0 x1 : Vec F S1024x512 .f32) (x2 : Vec F S1024x1 .i32) (x3 x4 : Vec F S512x512 .bf16) (x5 : Vec F S1x512 .f32) :
    Vec F S1024x512 .f32 :=
  View.canon [⟨rE, k0_pay1 (View.ld x2 rC) (View.ld x3 rT) (View.ld x0 rE) (View.ld x1 rE) (View.ld x4 rT) (View.ld x5 rB)⟩]

/-- The one store covers the block. -/
theorem cover_out (p0 : Vec F S1024x512 .f32) (y : S1024x512.Idx) :
    ∃ pc ∈ ([⟨rE, p0⟩] : List (View.Piece (Elt F) S1024x512 .f32)), y ∈ pc.1.set :=
  View.cover_of_tiled [⟨rE, p0⟩] S1024x512.size (by rfl) y

/-! ## The body's triple -/

set_option maxHeartbeats 1000000 in
/-- On whole staging blocks, the inputs' at contents `x0 … x5` and the output's at anything, the body runs to the
    continuation with the inputs' blocks as they were and the output's at `outBlk` of the inputs'. -/
theorem sound_kernel (c : Dev nD) (E : Set ℕ) (i : grid0.Coords)
    (arg1 : Memref sig .tc .vmem S1024x512 .f32) (harg1 : arg1.IsWhole) (arg2 : Memref sig .tc .vmem S1024x512 .f32) (harg2 : arg2.IsWhole)
    (arg3 : Memref sig .tc .vmem S1024x1 .i32) (harg3 : arg3.IsWhole) (arg4 : Memref sig .tc .vmem S512x512 .bf16) (harg4 : arg4.IsWhole)
    (arg5 : Memref sig .tc .vmem S512x512 .bf16) (harg5 : arg5.IsWhole) (arg6 : Memref sig .tc .vmem S1x512 .f32) (harg6 : arg6.IsWhole)
    (arg7 : Memref sig .tc .vmem S1024x512 .f32) (harg7 : arg7.IsWhole)
    (x0 x1 : Vec F S1024x512 .f32) (x2 : Vec F S1024x1 .i32) (x3 x4 : Vec F S512x512 .bf16) (x5 : Vec F S1x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (outBlk x0 x1 x2 x3 x4 x5)) -∗ K ⟨⟩))
      ⊢ wp frame (wpE (defs₀ (F := F)) Variants.none c none) E
          (cc0__fused_kernel i arg1 harg1 arg2 harg2 arg3 harg3 arg4 harg4 arg5 harg5 arg6 harg6 arg7 harg7) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover_out _)

/-- The stored value, opened: the whole-block loads are the blocks themselves, and the one whole-block store is the
    body's arithmetic of them. -/
theorem outBlk_eq (x0 x1 : Vec F S1024x512 .f32) (x2 : Vec F S1024x1 .i32) (x3 x4 : Vec F S512x512 .bf16) (x5 : Vec F S1x512 .f32) :
    outBlk x0 x1 x2 x3 x4 x5 = k0_pay1 x2 x3 x0 x1 x4 x5 := by
  have hz : (![0, 0] : Fin 2 → Nat) = fun _ => 0 := funext fun a => by fin_cases a <;> rfl
  unfold outBlk
  rw [View.canon_unit_zero hz]
  simp only [View.ld_unit_zero (S := S1024x512) hz, View.ld_unit_zero (S := S1024x1) hz, View.ld_unit_zero (S := S512x512) hz,
    View.ld_unit_zero (S := S1x512) hz]

end Cert.Kernel.Body

end
-- ==== Proof.FrameBits.lean ====
/-
  The fused layer's run on machine words: it terminates, faults nowhere and leaves its argument arrays as they were.

  Nothing is claimed here about what the output array ends holding, so the output's staging buffer is handed to the
  body at any contents and taken back at any contents. The six input buffers are only read: each per-edge buffer is
  handed back holding its block on the rows inside the array, and the table, weight and bias buffers their arrays.
-/
import proofs.«416538_j9509057593721_3_alg».proof.Proof.TripleBits
import Idealize.ShloMosaic.Lib.Pipeline.Value
import Idealize.ShloMosaic.Lib.ValueIdx
import Idealize.ShloMosaic.PureOps.BitExact

set_option maxRecDepth 16384

noncomputable section

namespace Cert.Kernel.Run

open Cert.Kernel Cert.Kernel.Gen Cert.Kernel.Body
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

variable (m : (ℓ : Loc nD τ sig) → Buf (Elt Bits) ℓ) (ρ : Dev nD → PrngReg)

/-! ## The proof data -/

/-- The windows nothing is said about: the output. -/
def forgets : Fin 7 → Bool := fun | 0 => false | 1 => false | 2 => false | 3 => false | 4 => false | 5 => false | 6 => true | ⟨_ + 7, h⟩ => absurd h (Nat.not_lt.2 (Nat.le_add_left _ _))

def blkG (c : Dev nD) (t : Fin cfg0.N) : S1024x512.Idx → Elt Bits .f32 :=
  win0_0.fill (grid0.coords t) (fun _ => Scalar.ofBits (F := Bits) .f32 0#32) (iblk m c 0 t)
def blkX (c : Dev nD) (t : Fin cfg0.N) : S1024x512.Idx → Elt Bits .f32 :=
  win0_1.fill (grid0.coords t) (fun _ => Scalar.ofBits (F := Bits) .f32 0#32) (iblk m c 1 t)
def blkT (c : Dev nD) (t : Fin cfg0.N) : S1024x1.Idx → Elt Bits .i32 :=
  win0_2.fill (grid0.coords t) (fun _ => (0#32 : BitVec 32)) (iblk m c 2 t)
def blkO (c : Dev nD) (t : Fin cfg0.N) : S1024x512.Idx → Elt Bits .f32 := fun _ => Scalar.ofBits (F := Bits) .f32 0#32

def dats (_ : Fin 1) (c : Dev nD) : Dat τ (Elt Bits) Unit ℕ (UR sig nD τ) ℕ cfg0 c where
  A w := V m c (Pipeline.arrRef spec0 w)
  after w t := match w with
    | ⟨0, _⟩ => blkG m c t
    | ⟨1, _⟩ => blkX m c t
    | ⟨2, _⟩ => blkT m c t
    | ⟨3, _⟩ => iblk m c 3 t
    | ⟨4, _⟩ => iblk m c 4 t
    | ⟨5, _⟩ => iblk m c 5 t
    | ⟨6, _⟩ => blkO c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = blkG m c t := by dsimp only [dats]
theorem after0_1 (c : Dev nD) (t : Fin cfg0.N) : (dats m 0 c).after 1 t = blkX m c t := by dsimp only [dats]
theorem after0_2 (c : Dev nD) (t : Fin cfg0.N) : (dats m 0 c).after 2 t = blkT m c t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-! ## What the body finds -/

theorem before_0 (c : Dev nD) (t : Fin cfg0.N) (d) :
    (dats m 0 c).before 0 t d = win0_0.fill (grid0.coords t) d (iblk m c 0 t) := by
  unfold Dat.before; rw [if_pos (fetch0_0 t)]; unfold Dat.fetched Dat.blockOf iblk; rw [A_eq]; try rfl
theorem before_1 (c : Dev nD) (t : Fin cfg0.N) (d) :
    (dats m 0 c).before 1 t d = win0_1.fill (grid0.coords t) d (iblk m c 1 t) := by
  unfold Dat.before; rw [if_pos (fetch0_1 t)]; unfold Dat.fetched Dat.blockOf iblk; rw [A_eq]; try rfl
theorem before_2 (c : Dev nD) (t : Fin cfg0.N) (d) :
    (dats m 0 c).before 2 t d = win0_2.fill (grid0.coords t) d (iblk m c 2 t) := by
  unfold Dat.before; rw [if_pos (fetch0_2 t)]; unfold Dat.fetched Dat.blockOf iblk; rw [A_eq]; try rfl
theorem before_3 (c : Dev nD) (t : Fin cfg0.N) (d) : (dats m 0 c).before 3 t d = iblk m c 3 t :=
  before0_3_of m (dats m 0 c) (A_eq m c 3) (after0_3 m c) t d
theorem before_4 (c : Dev nD) (t : Fin cfg0.N) (d) : (dats m 0 c).before 4 t d = iblk m c 4 t :=
  before0_4_of m (dats m 0 c) (A_eq m c 4) (after0_4 m c) t d
theorem before_5 (c : Dev nD) (t : Fin cfg0.N) (d) : (dats m 0 c).before 5 t d = iblk m c 5 t :=
  before0_5_of m (dats m 0 c) (A_eq m c 5) (after0_5 m c) t d

/-! ## The body obligation -/

theorem body_obligation (c : Dev nD) : BodyObligationLoose (dats m 0 c) (defs₀ (F := Bits)) Variants.none () Set.univ forgets := fun t => by
  rw [bigSep_W0, bigSep_W0]
  simp only [forgets]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩⟩
  rw [before_0 m c t d0, before_1 m c t d1, before_2 m c t d2, before_3 m c t d3, before_4 m c t d4, before_5 m c t d5]
  iapply (sound_kernel (F := Bits) c Set.univ (grid0.coords t)
    (win0_0.stage (cfg0.slots t 0)) (hstage0_0 ((cfg0.slots t 0).cast nbuf0_0)) (win0_1.stage (cfg0.slots t 1)) (hstage0_1 ((cfg0.slots t 1).cast nbuf0_1))
    (win0_2.stage (cfg0.slots t 2)) (hstage0_2 ((cfg0.slots t 2).cast nbuf0_2)) (win0_3.stage (cfg0.slots t 3)) (hstage0_3 ((cfg0.slots t 3).cast nbuf0_3))
    (win0_4.stage (cfg0.slots t 4)) (hstage0_4 ((cfg0.slots t 4).cast nbuf0_4)) (win0_5.stage (cfg0.slots t 5)) (hstage0_5 ((cfg0.slots t 5).cast nbuf0_5))
    (win0_6.stage (cfg0.slots t 6)) (hstage0_6 ((cfg0.slots t 6).cast nbuf0_6))
    (win0_0.fill (grid0.coords t) d0 (iblk m c 0 t)) (win0_1.fill (grid0.coords t) d1 (iblk m c 1 t))
    (win0_2.fill (grid0.coords t) d2 (iblk m c 2 t)) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  have h0 : win0_0.cut (grid0.coords t) ((dats m 0 c).after 0 t) = iblk m c 0 t := by
    rw [after0_0]; exact win0_0.cut_fill _ _ _
  have h1 : win0_1.cut (grid0.coords t) ((dats m 0 c).after 1 t) = iblk m c 1 t := by
    rw [after0_1]; exact win0_1.cut_fill _ _ _
  have h2 : win0_2.cut (grid0.coords t) ((dats m 0 c).after 2 t) = iblk m c 2 t := by
    rw [after0_2]; exact win0_2.cut_fill _ _ _
  isplitl [H0]
  · iexists d0
    change _ ⊢ owns (c : Thread nD τ) (st0_0 t) fullShare (win0_0.fill (grid0.coords t) d0 (win0_0.cut (grid0.coords t) ((dats m 0 c).after 0 t)))
    rw [h0]; try iexact H0
  isplitl [H1]
  · iexists d1
    change _ ⊢ owns (c : Thread nD τ) (st0_1 t) fullShare (win0_1.fill (grid0.coords t) d1 (win0_1.cut (grid0.coords t) ((dats m 0 c).after 1 t)))
    rw [h1]; try iexact H1
  isplitl [H2]
  · iexists d2
    change _ ⊢ owns (c : Thread nD τ) (st0_2 t) fullShare (win0_2.fill (grid0.coords t) d2 (win0_2.cut (grid0.coords t) ((dats m 0 c).after 2 t)))
    rw [h2]; try iexact H2
  isplitl [H3]
  · rw [after0_3]; iexact H3
  isplitl [H4]
  · rw [after0_4]; iexact H4
  isplitl [H5]
  · rw [after0_5]; iexact H5
  · iexists _; iexact H6

/-! ## The run and the frame -/

set_option backward.isDefEq.respectTransparency.types false in
/-- Every weakly fair execution terminates; afterwards every input array of the region holds what it held, and every
    buffer the region does not stage what the region found. -/
theorem run_main : θ_run defs (onTc (τ := τ) (main (F := Bits))) (s₀ m ρ)
    (Pipeline.RDat.FramePost (cfgs 0) (fun c => (dats m 0 c).toRForget forgets) (V m)) :=
  Pipeline.RDat.θ_run_frame cfgs (0 : Fin 1) launch0 defs₀ Variants.none (fun c => (dats m 0 c).toRForget forgets) m ρ main
    (hbody := fun c => (body_obligation m c).toRForget)
    (hshare := fun c => ((dats m 0 c).toRForget forgets).share_full fun _ => rfl)
    (howed := fun _ _ => rfl) (V := V m) (hmain := hmain m Variants.none) (hA := fun c w => A_eq m c w) (hΦ := fun _ _ => rfl)

/-- The argument arrays end as they began: the edge features are an input array of the region, the other six
    arguments are buffers the region does not stage, and no host operation before the region writes an argument. -/
theorem frame : θ_run defs (onTc (τ := τ) (main (F := Bits))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_arg0 (Pipeline.mem_restRefs_of main_arg0 (by decide) (by decide))).trans (V_main_arg0 m c),
      (Pipeline.RDat.FramePost.arr_in h c 1 rfl).trans ((A_eq m c 1).trans (V_main_arg1 m c)),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩)
    (run_main m ρ)

end Cert.Kernel.Run

end
-- ==== Proof.TripleIdeal.lean ====
/-
  One grid point of the fused layer: the body reads its six input blocks whole — the gathered node rows, the edge
  features, the edge-type column, the padded relation table, the transposed weight and the bias row —, computes the
  block of the layer's output from them, and overwrites the output block whole. Nothing else is touched: after the
  body every input block holds what it held, and the output block holds the body's one stored value, a pure function
  of the six input blocks.
-/
import proofs.«416538_j9509057593721_3_alg».proof.Proof.Gen.KernelIdeal.Frame
import proofs.«416538_j9509057593721_3_alg».proof.Proof.Gen.KernelIdeal.Skeleton
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's accesses: every load and the one store take the whole block -/

abbrev rE : Rect S1024x512 := Rect.unit (s := S1024x512) ![0, 0] S1024x512.size inb_S1024x512_S1024x512_0_0
abbrev rC : Rect S1024x1 := Rect.unit (s := S1024x1) ![0, 0] S1024x1.size inb_S1024x1_S1024x1_0_0
abbrev rT : Rect S512x512 := Rect.unit (s := S512x512) ![0, 0] S512x512.size inb_S512x512_S512x512_0_0
abbrev rB : Rect S1x512 := Rect.unit (s := S1x512) ![0, 0] S1x512.size inb_S1x512_S1x512_0_0

/-- What the output block holds after the body, from the six input blocks: its one store, over the whole block. -/
def outBlk (x0 x1 : Vec F S1024x512 .f32) (x2 : Vec F S1024x1 .i32) (x3 x4 : Vec F S512x512 .bf16) (x5 : Vec F S1x512 .f32) :
    Vec F S1024x512 .f32 :=
  View.canon [⟨rE, k0_pay1 (View.ld x2 rC) (View.ld x3 rT) (View.ld x0 rE) (View.ld x1 rE) (View.ld x4 rT) (View.ld x5 rB)⟩]

/-- The one store covers the block. -/
theorem cover_out (p0 : Vec F S1024x512 .f32) (y : S1024x512.Idx) :
    ∃ pc ∈ ([⟨rE, p0⟩] : List (View.Piece (Elt F) S1024x512 .f32)), y ∈ pc.1.set :=
  View.cover_of_tiled [⟨rE, p0⟩] S1024x512.size (by rfl) y

/-! ## The body's triple -/

set_option maxHeartbeats 1000000 in
/-- On whole staging blocks, the inputs' at contents `x0 … x5` and the output's at anything, the body runs to the
    continuation with the inputs' blocks as they were and the output's at `outBlk` of the inputs'. -/
theorem sound_kernel (c : Dev nD) (E : Set ℕ) (i : grid0.Coords)
    (arg1 : Memref sig .tc .vmem S1024x512 .f32) (harg1 : arg1.IsWhole) (arg2 : Memref sig .tc .vmem S1024x512 .f32) (harg2 : arg2.IsWhole)
    (arg3 : Memref sig .tc .vmem S1024x1 .i32) (harg3 : arg3.IsWhole) (arg4 : Memref sig .tc .vmem S512x512 .bf16) (harg4 : arg4.IsWhole)
    (arg5 : Memref sig .tc .vmem S512x512 .bf16) (harg5 : arg5.IsWhole) (arg6 : Memref sig .tc .vmem S1x512 .f32) (harg6 : arg6.IsWhole)
    (arg7 : Memref sig .tc .vmem S1024x512 .f32) (harg7 : arg7.IsWhole)
    (x0 x1 : Vec F S1024x512 .f32) (x2 : Vec F S1024x1 .i32) (x3 x4 : Vec F S512x512 .bf16) (x5 : Vec F S1x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (outBlk x0 x1 x2 x3 x4 x5)) -∗ K ⟨⟩))
      ⊢ wp frame (wpE (defs₀ (F := F)) Variants.none c none) E
          (cc0__fused_kernel i arg1 harg1 arg2 harg2 arg3 harg3 arg4 harg4 arg5 harg5 arg6 harg6 arg7 harg7) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover_out _)

/-- The stored value, opened: the whole-block loads are the blocks themselves, and the one whole-block store is the
    body's arithmetic of them. -/
theorem outBlk_eq (x0 x1 : Vec F S1024x512 .f32) (x2 : Vec F S1024x1 .i32) (x3 x4 : Vec F S512x512 .bf16) (x5 : Vec F S1x512 .f32) :
    outBlk x0 x1 x2 x3 x4 x5 = k0_pay1 x2 x3 x0 x1 x4 x5 := by
  have hz : (![0, 0] : Fin 2 → Nat) = fun _ => 0 := funext fun a => by fin_cases a <;> rfl
  unfold outBlk
  rw [View.canon_unit_zero hz]
  simp only [View.ld_unit_zero (S := S1024x512) hz, View.ld_unit_zero (S := S1024x1) hz, View.ld_unit_zero (S := S512x512) hz,
    View.ld_unit_zero (S := S1x512) hz]

end Cert.KernelIdeal.Body

end
-- ==== Proof.Spec.lean ====
/-
  The layer both programs compute, as one function of the argument arrays.

  For edge `e` and output feature `f`:
    out (e, f) = max (∑ k, ((node (s e, k) + rel (e, k)) + edge (e, k)) * W (f, k) + b f) 0
  where `s e` is the source-node row of edge `e` (its signed index clamped into the node table) and
  `rel (e, k)` is row `t e` of the relation table (its edge type read as a natural number; a type past
  the table's 500 rows selects nothing and contributes `0`). Everything is on the extended reals.
-/
import Idealize.ShloMosaic.PureOps.Ideal
import Idealize.ShloMosaic.Lib.ValueIdx

noncomputable section

open scoped BigOperators

namespace Cert.Layer

open Idealize.ShloMosaic Idealize.ShloMosaic.ValueIdx

/-- The per-edge arrays `[156250, 512]`, the node table `[100000, 512]`, the relation table `[500, 512]`, the weight
    `[512, 512]`, the bias `[512]` and the per-edge index vectors `[156250]`. -/
abbrev SE : Shape := ⟨2, ![156250, 512]⟩
abbrev SN : Shape := ⟨2, ![100000, 512]⟩
abbrev ST : Shape := ⟨2, ![500, 512]⟩
abbrev SW : Shape := ⟨2, ![512, 512]⟩
abbrev SB : Shape := ⟨1, ![512]⟩
abbrev SI : Shape := ⟨1, ![156250]⟩

/-- The source node's feature row of each edge: row `min (src e) 99999` of the node table, the index read signed
    (a negative one reads as row `0`). -/
def nodeRow (node : SN.Idx → EReal) (src : SI.Idx → BitVec 32) : SE.Idx → EReal :=
  fun i => node (ix2 ⟨min (src (ix1 (i 0))).toInt.toNat (100000 - 1), by omega⟩ (i 1))

/-- The relation embedding row of each edge: row `t e` of the relation table when `t e < 500` (read as a natural
    number), and `0` otherwise. -/
def relRow (emb : ST.Idx → EReal) (et : SI.Idx → BitVec 32) : SE.Idx → EReal :=
  fun i => if h : (et (ix1 (i 0))).toNat < 500 then emb (ix2 ⟨(et (ix1 (i 0))).toNat, h⟩ (i 1)) else 0

/-- The layer: the three per-edge summands added, multiplied by the transposed weight, the bias added, and the
    result cut off below at zero. -/
def layerOut (a r x : SE.Idx → EReal) (W : SW.Idx → EReal) (b : SB.Idx → EReal) : SE.Idx → EReal :=
  fun i => max (∑ k : Fin 512, ((a (ix2 (i 0) k) + r (ix2 (i 0) k)) + x (ix2 (i 0) k)) * W (ix2 (i 1) k) + b (ix1 (i 1)))
    (Ideal.ofBits .f32 0x00000000#32)

/-- The kernel's way of writing the same layer, over the arrays its one region is handed: the gathered node rows
    `g`, the edge features `x`, the edge types as a column `t`, the relation table padded to 512 rows `T`, the
    transposed weight `Wt` and the bias as a row `br`. The relation row is selected by a one-hot product, which is
    row `t e` of `T` when `t e < 512` and nothing otherwise. -/
def kOut (g x : SE.Idx → EReal) (t : (⟨2, ![156250, 1]⟩ : Shape).Idx → BitVec 32) (T Wt : SW.Idx → EReal)
    (br : (⟨2, ![1, 512]⟩ : Shape).Idx → EReal) : SE.Idx → EReal :=
  fun i => max (∑ k : Fin 512, ((g (ix2 (i 0) k)
      + (if h : (t (ix2 (i 0) 0)).toNat < 512 then T (ix2 ⟨(t (ix2 (i 0) 0)).toNat, h⟩ k) else 0)) + x (ix2 (i 0) k)) * Wt (ix2 k (i 1))
      + br (ix2 0 (i 1)))
    (Ideal.ofBits .f32 0x00000000#32)

end Cert.Layer

end
-- ==== Proof.LibPlainDot.lean ====
/-
  A plain matrix product read at an element, on the extended reals.

  For the dimension numbers of a plain product — `[M, K]` by `[K, N]`, the left operand's axis 1 contracted with the
  right operand's axis 0, no batch axes — the operand indices at output element `(a, b)` and contraction coordinate
  `k` are `(a, k)` and `(k, b)`. So a product accumulated into the zero splat is, at `(a, b)`, the plain sum
  `∑ k : Fin K, lhs (a, k) * rhs (k, b)`, and so is the host's `dot_general`.
-/
import Idealize.ShloMosaic.PureOps.Ideal.Laws
import Idealize.ShloMosaic.Lib.ValueIdx

noncomputable section

open scoped BigOperators

namespace Cert.Lib

open Idealize.ShloMosaic Idealize.ShloMosaic.ValueIdx

/-- The dimension numbers of a plain product `[M, K] × [K, N] → [M, N]`: `lhs_contracting = [1]`,
    `rhs_contracting = [0]`, the other axes the result's, no batch axes. At a printed record every field is `rfl`. -/
structure PlainDot {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

variable {M K N : Nat} {d : DotDims ⟨2, ![M, K]⟩ ⟨2, ![K, N]⟩ ⟨2, ![M, N]⟩}

/-- A plain product contracts one axis. -/
theorem PlainDot.rank_contr (hd : PlainDot d) : d.contr.rank = 1 := by
  rw [d.rank_contr, hd.lc]; rfl

/-- The contracted axis has extent `K`. -/
theorem PlainDot.size_contr (hd : PlainDot d) : d.contr.size ⟨0, by rw [hd.rank_contr]; exact Nat.one_pos⟩ = K := by
  obtain ⟨h1, h2, h3, h4, h5, h6⟩ := hd
  obtain ⟨lc, rc, ln, rn, lb, rb, wf⟩ := d
  simp only at h1 h2 h3 h4 h5 h6
  subst h1 h2 h3 h4 h5 h6
  rfl

/-- The left operand's row is the output's row. -/
theorem PlainDot.lhs0 (hd : PlainDot d) (i : (⟨2, ![M, N]⟩ : Shape).Idx) (q : d.contr.Idx) :
    (d.lhsIdx i q 0).val = (i 0).val := by
  obtain ⟨h1, h2, h3, h4, h5, h6⟩ := hd
  obtain ⟨lc, rc, ln, rn, lb, rb, wf⟩ := d
  simp only at h1 h2 h3 h4 h5 h6
  subst h1 h2 h3 h4 h5 h6
  unfold DotDims.lhsIdx
  rw [dif_neg (by simp), dif_pos (by simp)]
  rfl

/-- The left operand's column is the contraction coordinate. -/
theorem PlainDot.lhs1 (hd : PlainDot d) (i : (⟨2, ![M, N]⟩ : Shape).Idx) (q : d.contr.Idx) :
    (d.lhsIdx i q 1).val = (q ⟨0, by rw [hd.rank_contr]; exact Nat.one_pos⟩).val :=
  d.lhsIdx_val_of_single hd.lc i q

/-- The right operand's row is the contraction coordinate. -/
theorem PlainDot.rhs0 (hd : PlainDot d) (i : (⟨2, ![M, N]⟩ : Shape).Idx) (q : d.contr.Idx) :
    (d.rhsIdx i q 0).val = (q ⟨0, by rw [hd.rank_contr]; exact Nat.one_pos⟩).val :=
  d.rhsIdx_val_of_single hd.rc i q

/-- The right operand's column is the output's column. -/
theorem PlainDot.rhs1 (hd : PlainDot d) (i : (⟨2, ![M, N]⟩ : Shape).Idx) (q : d.contr.Idx) :
    (d.rhsIdx i q 1).val = (i 1).val := by
  obtain ⟨h1, h2, h3, h4, h5, h6⟩ := hd
  obtain ⟨lc, rc, ln, rn, lb, rb, wf⟩ := d
  simp only at h1 h2 h3 h4 h5 h6
  subst h1 h2 h3 h4 h5 h6
  unfold DotDims.rhsIdx
  rw [dif_neg (by simp), dif_pos (by simp)]
  rfl

/-- The contraction of a plain product, re-indexed by the contracted coordinate: at output element `(a, b)` it is
    `∑ k : Fin K, lhs (a, k) * rhs (k, b)`. -/
theorem PlainDot.sum_contr (hd : PlainDot d) (lhs : (⟨2, ![M, K]⟩ : Shape).Idx → EReal)
    (rhs : (⟨2, ![K, N]⟩ : Shape).Idx → EReal) (a : Fin M) (b : Fin N) :
    ∑ q : d.contr.Idx, lhs (d.lhsIdx (ix2 a b) q) * rhs (d.rhsIdx (ix2 a b) q)
      = ∑ k : Fin K, lhs (ix2 a k) * rhs (ix2 k b) := by
  rw [← Equiv.sum_comp (contrEquiv1 d K hd.rank_contr hd.size_contr).symm]
  refine Finset.sum_congr rfl fun k _ => ?_
  have hk := contrEquiv1_symm_val d K hd.rank_contr hd.size_contr k
  have el : d.lhsIdx (ix2 a b) ((contrEquiv1 d K hd.rank_contr hd.size_contr).symm k) = ix2 a k :=
    funext fun x => Fin.ext (by
      match x with
      | ⟨0, _⟩ => exact hd.lhs0 _ _
      | ⟨1, _⟩ => exact (hd.lhs1 _ _).trans hk)
  have er : d.rhsIdx (ix2 a b) ((contrEquiv1 d K hd.rank_contr hd.size_contr).symm k) = ix2 k b :=
    funext fun x => Fin.ext (by
      match x with
      | ⟨0, _⟩ => exact (hd.rhs0 _ _).trans hk
      | ⟨1, _⟩ => exact hd.rhs1 _ _)
  rw [el, er]

/-- A plain product accumulated into the zero splat, at element `(a, b)`: `∑ k, lhs (a, k) * rhs (k, b)`. -/
theorem PlainDot.matmul_zero_apply (hd : PlainDot d) {φ₁ φ₂ : FTy} (prec : Option ContractPrecision)
    (lhs : FVec Ideal ⟨2, ![M, K]⟩ φ₁) (rhs : FVec Ideal ⟨2, ![K, N]⟩ φ₂) (a : Fin M) (b : Fin N) :
    FloatOps.matmul d prec lhs rhs (constant ⟨2, ![M, N]⟩ .f32 0x00000000#32) (ix2 a b)
      = ∑ k : Fin K, lhs (ix2 a k) * rhs (ix2 k b) :=
  (Ideal.matmul_constant_zero_apply d prec lhs rhs (ix2 a b)).trans (hd.sum_contr lhs rhs a b)

/-- The host's plain `dot_general` at element `(a, b)`: the same sum. -/
theorem PlainDot.dotGeneral_apply (hd : PlainDot d) {φ₁ φ₂ : FTy} (prec : Option ContractPrecision) (sched : HostSchedule)
    (lhs : FVec Ideal ⟨2, ![M, K]⟩ φ₁) (rhs : FVec Ideal ⟨2, ![K, N]⟩ φ₂) (a : Fin M) (b : Fin N) :
    FloatOps.dotGeneral d prec sched lhs rhs (ix2 a b) = ∑ k : Fin K, lhs (ix2 a k) * rhs (ix2 k b) :=
  (Ideal.dotGeneral_apply d prec sched lhs rhs (ix2 a b)).trans (hd.sum_contr lhs rhs a b)

end Cert.Lib

end
-- ==== Proof.LibMaskSum.lean ====
/-
  A 0/1-masked contraction over the extended reals is a sum over the mask's support.

  On the extended reals `x * 0 = 0` and `x * 1 = x` for EVERY `x`, the infinities included (the extended reals are a
  commutative monoid with zero), so a mask factor `if g i = k then 1 else 0` inside a sum keeps exactly the terms with
  `g i = k`, with no finiteness side condition. When the index set is `H` consecutive blocks of `B` and `g` is
  "which block" (`c / B`), the support of block `k` is the `B` positions `B * k + b`, and the sum over it is a sum
  over `Fin B`. The one-hot expansion `∑ h, t h * [q = h] = t q` is the same fact read the other way.
-/
import Mathlib.Data.EReal.Inv
import Mathlib.Algebra.BigOperators.Group.Finset.Basic
import Mathlib.Algebra.BigOperators.Group.Finset.Piecewise

open scoped BigOperators

namespace Cert.Lib

/-- A 0/1 mask factor on the extended reals: `(if c then 1 else 0) * a` is `a` where the condition holds and `0`
    where it does not, for every `a` (infinite ones too). -/
theorem mask_mul (c : Prop) [Decidable c] (a : EReal) : (if c then (1 : EReal) else 0) * a = if c then a else 0 := by
  split_ifs <;> simp

/-- The same with the mask on the right. -/
theorem mul_mask (c : Prop) [Decidable c] (a : EReal) : a * (if c then (1 : EReal) else 0) = if c then a else 0 := by
  split_ifs <;> simp

/-- A masked term of a contraction: `p * ((if c then 1 else 0) * a)` is `p * a` where the condition holds and `0`
    where it does not, for every `p`, `a` on the extended reals. -/
theorem mul_mask_mul (c : Prop) [Decidable c] (p a : EReal) :
    p * ((if c then (1 : EReal) else 0) * a) = if c then p * a else 0 := by
  split_ifs <;> simp

/-- A 0/1-masked contraction is the sum over the mask's support: for finite `ι`, any `g : ι → κ`, `k : κ` and any
    `p a : ι → EReal`, `∑ i, p i * ((if g i = k then 1 else 0) * a i) = ∑ i ∈ univ.filter (g · = k), p i * a i`. -/
theorem sum_mul_mask_mul {ι κ : Type*} [Fintype ι] [DecidableEq κ] (g : ι → κ) (k : κ) (p a : ι → EReal) :
    ∑ i, p i * ((if g i = k then (1 : EReal) else 0) * a i)
      = ∑ i ∈ Finset.univ.filter (fun i => g i = k), p i * a i := by
  rw [Finset.sum_filter]
  exact Finset.sum_congr rfl fun i _ => mul_mask_mul _ _ _

/-- The same for a mask stated by any decidable predicate `q` on the index. -/
theorem sum_mul_maskP_mul {ι : Type*} [Fintype ι] (q : ι → Prop) [DecidablePred q] (p a : ι → EReal) :
    ∑ i, p i * ((if q i then (1 : EReal) else 0) * a i) = ∑ i ∈ Finset.univ.filter q, p i * a i := by
  rw [Finset.sum_filter]
  exact Finset.sum_congr rfl fun i _ => mul_mask_mul _ _ _

/-- A masked sum with the mask as the only other factor: `∑ i, (if q i then 1 else 0) * a i` is the sum of `a` over
    the indices where `q` holds. -/
theorem sum_maskP_mul {ι : Type*} [Fintype ι] (q : ι → Prop) [DecidablePred q] (a : ι → EReal) :
    ∑ i, (if q i then (1 : EReal) else 0) * a i = ∑ i ∈ Finset.univ.filter q, a i := by
  rw [Finset.sum_filter]
  exact Finset.sum_congr rfl fun i _ => mask_mul _ _

/-- Position `B * k + b` of block `k < H` at offset `b < B` lies below `H * B`. -/
theorem block_pos_lt {n H B : Nat} (hn : n = H * B) (k : Fin H) (b : Fin B) : B * k.val + b.val < n := by
  subst hn
  calc B * k.val + b.val < B * k.val + B := Nat.add_lt_add_left b.isLt _
    _ = B * (k.val + 1) := (Nat.mul_succ _ _).symm
    _ ≤ B * H := Nat.mul_le_mul_left B k.isLt
    _ = H * B := Nat.mul_comm _ _

/-- The sum over block `k` of an index set of `H` consecutive blocks of `B`: the indices `c : Fin n`
    (`n = H * B`) with `c / B = k` are the `B` positions `B * k + b`, so the filtered sum is a sum over `Fin B`.
    For any additive commutative monoid. -/
theorem sum_filter_block {α : Type*} [AddCommMonoid α] {n H B : Nat} (hn : n = H * B) (k : Fin H) (f : Fin n → α) :
    ∑ c ∈ Finset.univ.filter (fun c : Fin n => c.val / B = k.val), f c
      = ∑ b : Fin B, f ⟨B * k.val + b.val, block_pos_lt hn k b⟩ := by
  symm
  refine Finset.sum_bij (fun b _ => (⟨B * k.val + b.val, block_pos_lt hn k b⟩ : Fin n)) ?_ ?_ ?_ ?_
  · intro b _
    have hB : 0 < B := Nat.lt_of_le_of_lt (Nat.zero_le _) b.isLt
    simp only [Finset.mem_filter, Finset.mem_univ, true_and]
    rw [Nat.mul_add_div hB, Nat.div_eq_of_lt b.isLt, Nat.add_zero]
  · intro b₁ _ b₂ _ h
    have := congrArg Fin.val h
    simp only at this
    exact Fin.ext (by omega)
  · intro c hc
    simp only [Finset.mem_filter, Finset.mem_univ, true_and] at hc
    have hB : 0 < B := Nat.pos_of_ne_zero (by
      rintro rfl
      have h1 : c.val < H * 0 := lt_of_lt_of_eq c.isLt hn
      exact absurd h1 (by simp))
    refine ⟨⟨c.val % B, Nat.mod_lt _ hB⟩, Finset.mem_univ _, ?_⟩
    apply Fin.ext
    show B * k.val + c.val % B = c.val
    rw [← hc]; exact Nat.div_add_mod _ _
  · intro b _; rfl

/-- The block form of the masked contraction: over `Fin n` with `n = H * B` and the mask "`c` lies in block `k`"
    (`c / B = k`), `∑ c, p c * ((if c / B = k then 1 else 0) * a c) = ∑ b : Fin B, p (B·k + b) * a (B·k + b)`. -/
theorem sum_mul_blockmask_mul {n H B : Nat} (hn : n = H * B) (k : Fin H) (p a : Fin n → EReal) :
    ∑ c : Fin n, p c * ((if c.val / B = k.val then (1 : EReal) else 0) * a c)
      = ∑ b : Fin B, p ⟨B * k.val + b.val, block_pos_lt hn k b⟩ * a ⟨B * k.val + b.val, block_pos_lt hn k b⟩ := by
  rw [sum_mul_maskP_mul (fun c : Fin n => c.val / B = k.val) p a]
  exact sum_filter_block hn k fun c => p c * a c

/-- The one-hot expansion: `∑ h : Fin H, t h * (if j = h then 1 else 0) = t j` on the extended reals. -/
theorem sum_mul_onehot {H : Nat} (t : Fin H → EReal) (j : Fin H) :
    ∑ h : Fin H, t h * (if j = h then (1 : EReal) else 0) = t j := by
  simp only [mul_mask]
  rw [Finset.sum_ite_eq Finset.univ j t, if_pos (Finset.mem_univ _)]

/-- The one-hot expansion with the selected position a natural number `q < H` compared with the summation index's
    value: `∑ h : Fin H, t h * (if q = h then 1 else 0) = t q`. With `q = c / B` for `c < H * B` this is the block
    number of `c`. -/
theorem sum_mul_onehot_val {H : Nat} (t : Fin H → EReal) (q : Nat) (hq : q < H) :
    ∑ h : Fin H, t h * (if q = h.val then (1 : EReal) else 0) = t ⟨q, hq⟩ := by
  rw [← sum_mul_onehot t ⟨q, hq⟩]
  refine Finset.sum_congr rfl fun h _ => ?_
  have : (q = h.val) ↔ ((⟨q, hq⟩ : Fin H) = h) := ⟨fun e => Fin.ext e, fun e => congrArg Fin.val e⟩
  simp only [this]

/-- The block number of a position below `H * B` is below `H`. -/
theorem block_lt {n H B : Nat} (hn : n = H * B) (c : Fin n) : c.val / B < H := by
  have hc : c.val < H * B := lt_of_lt_of_eq c.isLt hn
  exact Nat.div_lt_of_lt_mul (lt_of_lt_of_eq hc (Nat.mul_comm H B))

/-- The one-hot expansion at a block number: for `c : Fin n`, `n = H * B`,
    `∑ h : Fin H, t h * (if c / B = h then 1 else 0) = t (c / B)`. -/
theorem sum_mul_onehot_block {n H B : Nat} (hn : n = H * B) (t : Fin H → EReal) (c : Fin n) :
    ∑ h : Fin H, t h * (if c.val / B = h.val then (1 : EReal) else 0) = t ⟨c.val / B, block_lt hn c⟩ :=
  sum_mul_onehot_val t _ _

end Cert.Lib
-- ==== Proof.Payload.lean ====
/-
  The kernel body's arithmetic read at one element, on the extended reals.

  For a block of 1024 edges the body builds, per edge row p, a 0/1 row of length 512 that is 1 exactly at the
  position equal to the edge's type word; multiplies it into the (padded) relation table, which selects the table's
  row of that type, or nothing when the type is not below 512; adds the node rows and the edge features; multiplies the sum by the
  transposed weight; adds the bias row; and cuts off below at zero. A change of float format is the identity
  on the extended reals, and 0 * x = 0, 1 * x = x hold for every extended real, so no finiteness is needed.
-/
import proofs.«416538_j9509057593721_3_alg».proof.Proof.Gen.KernelIdeal.Skeleton
import proofs.«416538_j9509057593721_3_alg».proof.Proof.Spec
import proofs.«416538_j9509057593721_3_alg».proof.Proof.LibPlainDot
import proofs.«416538_j9509057593721_3_alg».proof.Proof.LibMaskSum
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Idealize.ShloMosaic Idealize.ShloMosaic.ValueIdx Cert.KernelIdeal Cert.KernelIdeal.Gen Cert.Lib

/-- Both products of the body are plain `[1024, 512] × [512, 512]` products. -/
theorem plain : PlainDot dot_S1024x512_S512x512_S1024x512_1_0_0_1_n_n := ⟨rfl, rfl, rfl, rfl, rfl, rfl⟩

/-- A position below 512, as a 32-bit word, equals a word exactly when it is the word's value. -/
theorem ofNat_eq_iff (r : Fin 512) (w : BitVec 32) : BitVec.ofNat 32 r.val = w ↔ r.val = w.toNat := by
  constructor
  · rintro rfl
    rw [BitVec.toNat_ofNat]
    have := r.isLt
    omega
  · intro h
    rw [h]
    simp

/-- The comparison bit of two words, zero-extended and read as a signed integer, is 1 where they are equal and 0
    where they are not. -/
theorem onehot_word (a b : BitVec 32) :
    (FloatOps.sitofp (F := Ideal) .f32 ((IntOp.cmpi .eq a b).setWidth 32) : EReal) = if a = b then 1 else 0 := by
  show (((BitVec.setWidth 32 (BitVec.ofBool (a == b))).toInt : ℝ) : EReal) = _
  by_cases h : a = b
  · subst h
    simp
  · have hb : (a == b) = false := by simpa using h
    rw [hb, if_neg h]
    simp

/-- The position counter along the columns reads the column. -/
theorem iota_col_apply (p : Fin 1024) (r : Fin 512) :
    iota .tc S1024x512 32 [1] iota_S1024x512_d1_w32 (ix2 p r) = BitVec.ofNat 32 r.val :=
  iota_single_apply .tc S1024x512 32 1 _ (ix2 p r)

/-- The edge-type column broadcast along the columns reads the row's one entry. -/
theorem type_col_apply (v1 : Vec Ideal S1024x1 .i32) (p : Fin 1024) (r : Fin 512) :
    broadcastTo S1024x512 (shapeCast S1024x1 v1 shapeCasts_S1024x1_S1024x1) broadcasts_S1024x1_S1024x512 (ix2 p r)
      = v1 (ix2 p 0) := by
  rw [shapeCast_self]
  refine broadcastTo_apply _ _ _ (ix2 p 0) fun a => ?_
  match a with
  | ⟨0, _⟩ => rfl
  | ⟨1, _⟩ => rfl

/-- The 0/1 factor at row p, position r: 1 exactly when r is the edge type of row p. -/
theorem onehot_apply (v1 : Vec Ideal S1024x1 .i32) (p : Fin 1024) (r : Fin 512) :
    (truncf .bf16 (sitofp (F := Ideal) .f32 (extui 32 (cmpi .eq (iota .tc S1024x512 32 [1] iota_S1024x512_d1_w32)
        (broadcastTo S1024x512 (shapeCast S1024x1 v1 shapeCasts_S1024x1_S1024x1) broadcasts_S1024x1_S1024x512)) natLt_1_32))
        bitsLt_bf16_f32 : FVec Ideal S1024x512 .bf16) (ix2 p r)
      = if r.val = (v1 (ix2 p 0) : BitVec 32).toNat then (1 : EReal) else 0 := by
  show (FloatOps.sitofp (F := Ideal) .f32 ((IntOp.cmpi .eq (iota .tc S1024x512 32 [1] iota_S1024x512_d1_w32 (ix2 p r))
      (broadcastTo S1024x512 (shapeCast S1024x1 v1 shapeCasts_S1024x1_S1024x1) broadcasts_S1024x1_S1024x512 (ix2 p r))).setWidth 32) : EReal) = _
  rw [iota_col_apply, type_col_apply, onehot_word]
  exact if_congr (ofNat_eq_iff r _) rfl rfl

/-- A 0/1 row that is 1 exactly at position n, multiplied into a column: the column's entry n when n is a
    position, and 0 when it is not. -/
theorem sum_onehot_left {H : Nat} (t : Fin H → EReal) (n : Nat) :
    ∑ r : Fin H, (if r.val = n then (1 : EReal) else 0) * t r = if h : n < H then t ⟨n, h⟩ else 0 := by
  simp only [mask_mul]
  split
  · rename_i h
    rw [Finset.sum_eq_single (⟨n, h⟩ : Fin H)]
    · simp
    · intro b _ hb
      rw [if_neg]
      intro e
      exact hb (Fin.ext e)
    · intro h'
      exact absurd (Finset.mem_univ _) h'
  · rename_i h
    refine Finset.sum_eq_zero fun r _ => ?_
    rw [if_neg]
    intro e
    exact h (e ▸ r.isLt)

/-- The body's result at element (p, q). -/
theorem pay_apply (v1 : Vec Ideal S1024x1 .i32) (v8 : Vec Ideal S512x512 .bf16) (v11 v14 : Vec Ideal S1024x512 .f32)
    (v17 : Vec Ideal S512x512 .bf16) (v20 : Vec Ideal S1x512 .f32) (p : Fin 1024) (q : Fin 512) :
    Gen.k0_pay1 (F := Ideal) v1 v8 v11 v14 v17 v20 (ix2 p q)
      = max (∑ k : Fin 512, ((v11 (ix2 p k) + (if h : (v1 (ix2 p 0) : BitVec 32).toNat < 512 then v8 (ix2 ⟨(v1 (ix2 p 0) : BitVec 32).toNat, h⟩ k) else 0)) + v14 (ix2 p k)) * v17 (ix2 k q) + v20 (ix2 0 q))
          (Ideal.ofBits .f32 0x00000000#32) := by
  unfold Gen.k0_pay1
  dsimp only
  refine congrArg₂ max (congrArg₂ (· + ·) ?_ ?_) rfl
  · -- the second product, into the zero splat
    refine (plain.matmul_zero_apply none _ _ p q).trans ?_
    refine Finset.sum_congr rfl fun k _ => ?_
    refine congrArg₂ (· * ·) ?_ (congrFun (shapeCast_self v17 _) (ix2 k q))
    -- the three summands at (p, k)
    refine congrArg₂ (· + ·) (congrArg₂ (· + ·) (congrFun (shapeCast_self v11 _) (ix2 p k)) ?_) rfl
    -- the first product: the 0/1 row into the relation table
    refine (plain.matmul_zero_apply none _ _ p k).trans ?_
    refine (Finset.sum_congr rfl fun r _ =>
      congrArg₂ (· * ·) (onehot_apply v1 p r) (congrFun (shapeCast_self v8 _) (ix2 r k))).trans ?_
    exact sum_onehot_left (fun r : Fin 512 => v8 (ix2 r k)) _
  · -- the bias row broadcast over the rows
    rw [shapeCast_self]
    exact broadcastTo_1b_ab_apply v20 _ p q

end Cert.KernelIdeal.Pay

end
-- ==== Proof.LibRowGather.lean ====
/-
  A row gather read at an element. jnp's `table[idx]` over a rank-2 table `[N, M]` with a vector of `n` row numbers
  lowers to a `stablehlo.gather` whose start indices are the `[n, 1]` column of row numbers, whose operand axis 0 is
  collapsed and start-indexed, whose operand axis 1 is kept whole as the result's offset axis 1, and whose index vector
  sits on axis 1 of the start indices. Result element `(p, q)` is the table at row "start index of `p`, read signed and
  clamped into `[0, N - 1]`" and column `q`.
-/
import Idealize.ShloMosaic.Lib.StableHlo.Predicate

namespace Cert.LibRowGather

open Idealize.ShloMosaic Idealize.ShloMosaic.StableHlo.Predicate

/-- The one entry of a list known to be a singleton. -/
theorem getElem_of_eq_singleton {α : Type} {L : List α} {x : α} (h : L = [x]) (k : Nat) (hk : k < L.length) : L[k] = x := by
  subst h
  have hk0 : k = 0 := by simpa using hk
  subst hk0
  rfl

section
variable {α : Type} {N M n w : Nat} (d : GatherDims ⟨2, ![N, M]⟩ ⟨2, ![n, 1]⟩ ⟨2, ![n, M]⟩)
  (hoff : d.offsetDims = [1]) (hcoll : d.collapsedSliceDims = [0]) (hob : d.operandBatchingDims = [])
  (hsim : d.startIndexMap = [0]) (hivd : d.indexVectorDim = 1)
include hoff hcoll hob hsim hivd

/-- The start-indices entry that result row `p` reads its row number from is entry `(p, 0)`. -/
theorem siIdx_row (p : Fin n) (q : Fin M) (c : Fin d.startIndexMap.length) : d.siIdx (ij p q) c = ixP p := by
  have hc : c.val = 0 := by
    have hlen : d.startIndexMap.length = 1 := by rw [hsim]; rfl
    have := c.isLt
    omega
  funext b
  match b with
  | ⟨0, _⟩ =>
    unfold GatherDims.siIdx
    rw [dif_neg (by rw [hivd]; simp)]
    unfold GatherDims.siCoord
    apply Fin.ext
    simp only [Fin.val_cast]
    have hbd : d.batchDims = [0] := by
      show (⟨2, ![n, M]⟩ : Shape).kept d.offsetDims = [0]
      rw [hoff]; rfl
    rw [getElem_of_eq_singleton hbd]
    rfl
  | ⟨1, _⟩ =>
    unfold GatherDims.siIdx
    rw [dif_pos (by rw [hivd])]
    apply Fin.ext
    exact hc

/-- On the table's row axis the operand index is the clamped start index. -/
theorem operandIdx_row (idx : IVec ⟨2, ![n, 1]⟩ w) (p : Fin n) (q : Fin M) :
    (d.operandIdx (ij p q) idx 0).val = min (idx (ixP p)).toInt.toNat (N - 1) := by
  have hb : (0 : Fin 2) ∉ d.operandBatchingDims := by rw [hob]; exact List.not_mem_nil
  have hk : (0 : Fin 2) ∉ d.sKept := by rw [GatherDims.mem_sKept, hcoll]; simp
  have hm : (0 : Fin 2) ∈ d.startIndexMap := by rw [hsim]; exact List.mem_singleton.mpr rfl
  have hsl : d.sliceSizes 0 = 1 := d.slice_collapsed 0 (by rw [hcoll]; exact List.mem_singleton.mpr rfl)
  simp only [GatherDims.operandIdx, GatherDims.batchCoord_eq_zero _ _ _ hb, GatherDims.offCoord_eq_zero _ _ _ hk,
    Nat.add_zero, GatherDims.start, dif_pos hm]
  rw [siIdx_row d hoff hcoll hob hsim hivd p q, hsl]
  rfl

/-- On the table's column axis the operand index is the result's column. -/
theorem operandIdx_col (idx : IVec ⟨2, ![n, 1]⟩ w) (p : Fin n) (q : Fin M) :
    (d.operandIdx (ij p q) idx 1).val = q.val := by
  have hb : (1 : Fin 2) ∉ d.operandBatchingDims := by rw [hob]; exact List.not_mem_nil
  have hm : (1 : Fin 2) ∉ d.startIndexMap := by rw [hsim]; simp
  have hk : (1 : Fin 2) ∈ d.sKept := by rw [GatherDims.mem_sKept, hcoll, hob]; simp
  simp only [GatherDims.operandIdx, GatherDims.batchCoord_eq_zero _ _ _ hb, Nat.add_zero, GatherDims.start, dif_neg hm,
    Nat.zero_add, GatherDims.offCoord, dif_pos hk]
  rw [getElem_of_eq_singleton hoff]
  rfl

/-- THE ROW GATHER at `(p, q)`: the table at the clamped row number of `p` and at column `q`. -/
theorem gather_rows (x : (⟨2, ![N, M]⟩ : Shape).Idx → α) (idx : IVec ⟨2, ![n, 1]⟩ w) (p : Fin n) (q : Fin M) (hN : 0 < N) :
    Host.gather d x idx (ij p q) = x (ij ⟨min (idx (ixP p)).toInt.toNat (N - 1), by omega⟩ q) := by
  unfold Host.gather
  congr 1
  funext a
  match a with
  | ⟨0, _⟩ => exact Fin.ext (operandIdx_row d hoff hcoll hob hsim hivd idx p q)
  | ⟨1, _⟩ => exact Fin.ext (operandIdx_col d hoff hcoll hob hsim hivd idx p q)

end

end Cert.LibRowGather
-- ==== Proof.LibPadRead.lean ====
/-
  A host `pad` at the high end of the leading axis, and reshapes between a matrix and its flat row-major vector, read
  at an index written by coordinates.

  `pad_high_ix1` / `pad_high_rows_ix2`: a vector (a matrix) padded behind its last entry (its last row) only, with no low
  or interior padding, reads the operand where the leading coordinate is inside it and the padding value past it.
  `shapeCast_ab_flat_apply` / `shapeCast_abc_ab_apply`: a matrix flattened reads, at position `i b + j`, the matrix at
  `(i, j)`; a rank-3 array with its two trailing axes merged reads, at `(k, i c + j)`, the array at `(k, i, j)`.
  `broadcastInDim_rows_ix2`: a vector copied along a new trailing axis reads the vector at the row.
-/
import Idealize.ShloMosaic.Lib.KernelVsHost
import Idealize.ShloMosaic.Lib.Pipeline.Value
import Idealize.ShloMosaic.Lib.ValueLayout

noncomputable section

namespace Cert.LibPadRead

open Idealize.ShloMosaic Idealize.ShloMosaic.ValueIdx

variable {α : Type}

/-- A vector padded behind its last entry reads, at `j`, the vector when `j` is inside it and the padding value past it. -/
theorem pad_high_ix1 {n n' : ℕ} (hi : Fin 1 → ℕ) (x : (⟨1, ![n]⟩ : Shape).Idx → α) {u : Shape} (v : u.Idx → α)
    (h : (⟨1, ![n]⟩ : Shape).Pads ![0] hi ![0] ⟨1, ![n']⟩) (hu : 0 < u.numel) (j : Fin n') :
    pad ⟨1, ![n']⟩ ![0] hi ![0] x v h hu (ix1 j)
      = if hj : j.val < n then x (ix1 ⟨j.val, hj⟩) else v (Shape.Idx.first hu) := by
  split
  · next hj =>
    exact pad_apply_of_inside _ _ _ x v h hu _ (ix1 ⟨j.val, hj⟩) (fun a => match a with | ⟨0, _⟩ => by simp)
  · next hj =>
    exact pad_apply_of_not_inside _ _ _ x v h hu _ (0 : Fin 1) (fun hin => hj (by simpa using hin.2.2))

/-- A matrix padded behind its last row reads, at `(i, j)`, the matrix when row `i` is inside it and the padding value
    past it. -/
theorem pad_high_rows_ix2 {n n' c : ℕ} (hi : Fin 2 → ℕ) (x : (⟨2, ![n, c]⟩ : Shape).Idx → α) {u : Shape} (v : u.Idx → α)
    (h : (⟨2, ![n, c]⟩ : Shape).Pads ![0, 0] hi ![0, 0] ⟨2, ![n', c]⟩) (hu : 0 < u.numel) (i : Fin n') (j : Fin c) :
    pad ⟨2, ![n', c]⟩ ![0, 0] hi ![0, 0] x v h hu (ix2 i j)
      = if hi' : i.val < n then x (ix2 ⟨i.val, hi'⟩ j) else v (Shape.Idx.first hu) := by
  split
  · next hi' =>
    exact pad_apply_of_inside _ _ _ x v h hu _ (ix2 ⟨i.val, hi'⟩ j)
      (fun a => match a with | ⟨0, _⟩ => by simp | ⟨1, _⟩ => by simp)
  · next hi' =>
    exact pad_apply_of_not_inside _ _ _ x v h hu _ (0 : Fin 2) (fun hin => hi' (by simpa using hin.2.2))

/-- A matrix flattened row-major reads, at position `i b + j`, the matrix at `(i, j)`. -/
theorem shapeCast_ab_flat_apply {a b N : ℕ} (x : (⟨2, ![a, b]⟩ : Shape).Idx → α)
    (h : (⟨2, ![a, b]⟩ : Shape).ShapeCasts ⟨1, ![N]⟩) (i : Fin a) (j : Fin b) (k : Fin N) (hk : k.val = i.val * b + j.val) :
    shapeCast ⟨1, ![N]⟩ x h (ix1 k) = x (ix2 i j) :=
  shapeCast_apply x h _ _ (by
    rw [Shape.rowMajor_val_two, Shape.rowMajor_val_one]
    show i.val * b + j.val = k.val
    exact hk.symm)

/-- A rank-3 array with its two trailing axes merged reads, at `(k, i c + j)`, the array at `(k, i, j)`. -/
theorem shapeCast_abc_ab_apply {a b c M : ℕ} (x : (⟨3, ![a, b, c]⟩ : Shape).Idx → α)
    (h : (⟨3, ![a, b, c]⟩ : Shape).ShapeCasts ⟨2, ![a, M]⟩) (hM : M = b * c) (k : Fin a) (i : Fin b) (j : Fin c) (l : Fin M)
    (hl : l.val = i.val * c + j.val) :
    shapeCast ⟨2, ![a, M]⟩ x h (ix2 k l) = x (ix3 k i j) :=
  shapeCast_apply x h _ _ (by
    rw [Shape.rowMajor_val_three, Shape.rowMajor_val_two]
    show (k.val * b + i.val) * c + j.val = k.val * M + l.val
    rw [hl, hM, Nat.add_mul, Nat.mul_assoc, Nat.add_assoc])

/-- A vector copied along a new trailing axis reads, at `(i, j)`, the vector at `i`. -/
theorem broadcastInDim_rows_ix2 {a b : ℕ} (ha : a ≠ 1) (x : (⟨1, ![a]⟩ : Shape).Idx → α)
    (h : (⟨1, ![a]⟩ : Shape).BroadcastsInDim ⟨2, ![a, b]⟩ ![0]) (i : Fin a) (j : Fin b) :
    broadcastInDim ⟨2, ![a, b]⟩ ![0] h x (ix2 i j) = x (ix1 i) :=
  broadcastInDim_apply _ h x _ _ (fun c => match c with
    | ⟨0, _⟩ => by
      show i.val = if a = 1 then 0 else i.val
      rw [if_neg ha])

end Cert.LibPadRead

end
-- ==== Proof.HostReads.lean ====
/-
  What the kernel's one region is handed, read at an element, and the layer it therefore computes.

  Before the region the host gathers the source node's row of each edge out of the node table (row numbers read
  signed and clamped into the table), pads the relation table from 500 to 512 rows with zeros, turns the vector of
  edge types into a column, transposes the weight, and turns the bias into a row; the changes of float format are
  the identity on the extended reals. Read at an element: the gathered array at (e, k) is the node table at the
  clamped source row of edge e; the padded table's row r is the table's row r for r below 500 and zero for r from 500
  to 511; the column at (e, 0) is the edge type of e; the transposed weight at (k, f) is the weight at (f, k); the
  bias row at (0, f) is the bias at f. So "row t of the padded table when t is below 512, else nothing" is "row t of
  the table when t is below 500, else nothing", and the kernel's way of writing the layer is the layer.
-/
import proofs.«416538_j9509057593721_3_alg».proof.Proof.Gen.KernelIdeal.Frame
import proofs.«416538_j9509057593721_3_alg».proof.Proof.Spec
import proofs.«416538_j9509057593721_3_alg».proof.Proof.LibRowGather
import proofs.«416538_j9509057593721_3_alg».proof.Proof.LibPadRead
import Idealize.ShloMosaic.Lib.ValueIdx
import Idealize.ShloMosaic.Lib.ValueLayout
import Idealize.ShloMosaic.Lib.Pipeline.Value
import Idealize.ShloMosaic.Lib.StableHlo.Run
import Idealize.ShloMosaic.Lib.StableHlo.Predicate
import Idealize.ShloMosaic.PureOps.Ideal.Laws

noncomputable section

open scoped BigOperators

namespace Cert.KernelIdeal.HostReads

open Idealize.ShloMosaic Idealize.ShloMosaic.TcCoe Idealize.ShloMosaic.ValueIdx Idealize.ShloMosaic.StableHlo
open Idealize.ShloMosaic.StableHlo.Predicate (ij ixP)
open Cert.KernelIdeal Cert.KernelIdeal.Gen

variable (m : (ℓ : Loc nD τ sig) → Buf (Elt Ideal) ℓ)

/-! ## The arrays at their literal types -/

/-- The node table. -/
abbrev A0 (c : Dev nD) : S100000x512.Idx → EReal := m ((c : Thread nD τ).loc main_arg0)
/-- The edge features. -/
abbrev A1 (c : Dev nD) : S156250x512.Idx → EReal := m ((c : Thread nD τ).loc main_arg1)
/-- The source node of each edge. -/
abbrev A2 (c : Dev nD) : S156250.Idx → BitVec 32 := m ((c : Thread nD τ).loc main_arg2)
/-- The type of each edge. -/
abbrev A3 (c : Dev nD) : S156250.Idx → BitVec 32 := m ((c : Thread nD τ).loc main_arg3)
/-- The relation table. -/
abbrev A4 (c : Dev nD) : S500x512.Idx → EReal := m ((c : Thread nD τ).loc main_arg4)
/-- The weight. -/
abbrev A5 (c : Dev nD) : S512x512.Idx → EReal := m ((c : Thread nD τ).loc main_arg5)
/-- The bias. -/
abbrev A6 (c : Dev nD) : S512.Idx → EReal := m ((c : Thread nD τ).loc main_arg6)

/-- What the region finds: the gathered node rows, … -/
abbrev G0 (c : Dev nD) : S156250x512.Idx → EReal := Gen.V (F := Ideal) m c main_v0
/-- … the edge features, … -/
abbrev G1 (c : Dev nD) : S156250x512.Idx → EReal := Gen.V (F := Ideal) m c main_arg1
/-- … the padded relation table, … -/
abbrev G2 (c : Dev nD) : S512x512.Idx → EReal := Gen.V (F := Ideal) m c main_v2
/-- … the column of edge types, … -/
abbrev G3 (c : Dev nD) : S156250x1.Idx → BitVec 32 := Gen.V (F := Ideal) m c main_v3
/-- … the transposed weight, … -/
abbrev G5 (c : Dev nD) : S512x512.Idx → EReal := Gen.V (F := Ideal) m c main_v5
/-- … and the bias as a row. -/
abbrev G6 (c : Dev nD) : S1x512.Idx → EReal := Gen.V (F := Ideal) m c main_v6

/-! ## Each staged array as the host operations' term of the arguments -/

/-- The gathered node rows. -/
theorem v0_eq (c : Dev nD) :
    G0 m c = Host.gather gather_S100000x512_S156250x1_S156250x512_1_0_n_n_0_1_1512 (A0 m c)
      (broadcastInDim S156250x1 ![0] bcast_S156250_S156250x1_0 (A2 m c)) := by
  show Gen.V (F := Ideal) m c main_v0 = _
  dsimp only [Gen.V]
  simp only [Gen.hostOps0, Gen.hostOps0_1, Gen.hostOps0_2, Gen.hostOps0_3, List.flatten_cons, List.flatten_nil, List.append_nil, List.cons_append, List.nil_append]
  after_results
  rfl

/-- The relation table padded to 512 rows with the zero constant. -/
theorem v2_eq (c : Dev nD) :
    G2 m c = truncf (F := Ideal) .bf16 (pad S512x512 ![0, 0] ![12, 0] ![0, 0] (A4 m c)
      (sitofp (F := Ideal) .f32 (constantI S_ 32 0#32)) pads_S500x512_S512x512_0120_000 h_S_) bitsLt_bf16_f32 := by
  show Gen.V (F := Ideal) m c main_v2 = _
  dsimp only [Gen.V]
  simp only [Gen.hostOps0, Gen.hostOps0_1, Gen.hostOps0_2, Gen.hostOps0_3, List.flatten_cons, List.flatten_nil, List.append_nil, List.cons_append, List.nil_append]
  after_results
  rfl

/-- The edge types as a column. -/
theorem v3_eq (c : Dev nD) : G3 m c = shapeCast S156250x1 (A3 m c) shapeCasts_S156250_S156250x1 := by
  show Gen.V (F := Ideal) m c main_v3 = _
  dsimp only [Gen.V]
  simp only [Gen.hostOps0, Gen.hostOps0_1, Gen.hostOps0_2, Gen.hostOps0_3, List.flatten_cons, List.flatten_nil, List.append_nil, List.cons_append, List.nil_append]
  after_results
  rfl

/-- The weight transposed. -/
theorem v5_eq (c : Dev nD) :
    G5 m c = truncf (F := Ideal) .bf16 (transpose S512x512 [1, 0] (A5 m c) transposes_S512x512_S512x512_1_0) bitsLt_bf16_f32 := by
  show Gen.V (F := Ideal) m c main_v5 = _
  dsimp only [Gen.V]
  simp only [Gen.hostOps0, Gen.hostOps0_1, Gen.hostOps0_2, Gen.hostOps0_3, List.flatten_cons, List.flatten_nil, List.append_nil, List.cons_append, List.nil_append]
  after_results

/-- The bias as a row. -/
theorem v6_eq (c : Dev nD) : G6 m c = shapeCast S1x512 (A6 m c) shapeCasts_S512_S1x512 := by
  show Gen.V (F := Ideal) m c main_v6 = _
  dsimp only [Gen.V]
  simp only [Gen.hostOps0, Gen.hostOps0_1, Gen.hostOps0_2, Gen.hostOps0_3, List.flatten_cons, List.flatten_nil, List.append_nil, List.cons_append, List.nil_append]
  after_results
  rfl

/-! ## Each read at an element -/

/-- Two spellings of a rank-2 index. -/
theorem ij_eq_ix2 {n k : Nat} (p : Fin n) (q : Fin k) : ij p q = ix2 p q :=
  funext fun a => match a with | ⟨0, _⟩ => rfl | ⟨1, _⟩ => rfl

/-- Two spellings of an index into a column. -/
theorem ixP_eq_ix2 {n : Nat} (p : Fin n) : ixP p = ix2 p (0 : Fin 1) :=
  funext fun a => match a with | ⟨0, _⟩ => rfl | ⟨1, _⟩ => rfl

/-- The column of source nodes at (e, 0): the source node of e. -/
theorem src_col_apply (c : Dev nD) (e : Fin 156250) :
    broadcastInDim S156250x1 ![0] bcast_S156250_S156250x1_0 (A2 m c) (ixP e) = A2 m c (ix1 e) := by
  rw [ixP_eq_ix2]
  exact Cert.LibPadRead.broadcastInDim_rows_ix2 (by decide) (A2 m c) bcast_S156250_S156250x1_0 e (0 : Fin 1)

/-- The gathered array at (e, k): the node table at the source row of edge e, read signed and clamped. -/
theorem v0_apply (c : Dev nD) (e : Fin 156250) (k : Fin 512) :
    G0 m c (ix2 e k) = Cert.Layer.nodeRow (A0 m c) (A2 m c) (ix2 e k) := by
  rw [v0_eq, ← ij_eq_ix2 e k]
  refine (Cert.LibRowGather.gather_rows gather_S100000x512_S156250x1_S156250x512_1_0_n_n_0_1_1512 rfl rfl rfl rfl rfl
    (A0 m c) _ e k (by decide)).trans ?_
  refine congrArg (A0 m c) (funext fun a => ?_)
  match a with
  | ⟨0, _⟩ =>
    refine Fin.ext ?_
    show min (broadcastInDim S156250x1 ![0] bcast_S156250_S156250x1_0 (A2 m c) (ixP e)).toInt.toNat (100000 - 1)
      = min (A2 m c (ix1 e)).toInt.toNat (100000 - 1)
    rw [src_col_apply]
  | ⟨1, _⟩ => rfl

/-- The padded table at (r, k): the table's row r below 500, zero from 500 on. -/
theorem v2_apply (c : Dev nD) (r k : Fin 512) :
    G2 m c (ix2 r k) = if h : r.val < 500 then A4 m c (ix2 ⟨r.val, h⟩ k) else 0 := by
  rw [v2_eq]
  refine (Cert.LibPadRead.pad_high_rows_ix2 ![12, 0] (A4 m c) _ pads_S500x512_S512x512_0120_000 h_S_ r k).trans ?_
  refine dite_congr rfl (fun _ => rfl) (fun _ => ?_)
  show (((0#32 : BitVec 32).toInt : ℝ) : EReal) = 0
  simp

/-- The column of edge types at (e, 0): the edge type of e. -/
theorem v3_apply (c : Dev nD) (e : Fin 156250) : G3 m c (ix2 e (0 : Fin 1)) = A3 m c (ix1 e) := by
  rw [v3_eq]
  refine shapeCast_apply (A3 m c) _ _ _ ?_
  rw [Shape.rowMajor_val_one, Shape.rowMajor_val_two]
  show e.val = e.val * 1 + 0
  omega

/-- The transposed weight at (k, f): the weight at (f, k). -/
theorem v5_apply (c : Dev nD) (k f : Fin 512) : G5 m c (ix2 k f) = A5 m c (ix2 f k) := by
  rw [v5_eq]
  exact transpose_ix2_apply (A5 m c) transposes_S512x512_S512x512_1_0 k f

/-- The bias row at (0, f): the bias at f. -/
theorem v6_apply (c : Dev nD) (f : Fin 512) : G6 m c (ix2 (0 : Fin 1) f) = A6 m c (ix1 f) := by
  rw [v6_eq]
  exact shapeCast_a_1a_apply (A6 m c) shapeCasts_S512_S1x512 0 f

/-! ## The relation row, and the layer -/

/-- Row t of a 512-row table that is a 500-row table followed by zero rows, when t is below 512 and nothing
    otherwise, is row t of the 500-row table when t is below 500 and nothing otherwise. -/
theorem rel_select (T : Fin 512 → EReal) (E : (r : Nat) → r < 500 → EReal)
    (hT : ∀ r : Fin 512, T r = if h : r.val < 500 then E r.val h else 0) (t : Nat) :
    (if h : t < 512 then T ⟨t, h⟩ else 0) = if h : t < 500 then E t h else 0 := by
  by_cases h1 : t < 500
  · rw [dif_pos (by omega : t < 512), dif_pos h1, hT, dif_pos h1]
  · rw [dif_neg h1]
    by_cases h2 : t < 512
    · rw [dif_pos h2, hT, dif_neg h1]
    · rw [dif_neg h2]

/-- The kernel's way of writing the layer at element (e, f). -/
theorem kOut_apply (g x : Cert.Layer.SE.Idx → EReal) (t : S156250x1.Idx → BitVec 32) (T Wt : Cert.Layer.SW.Idx → EReal)
    (br : S1x512.Idx → EReal) (e : Fin 156250) (f : Fin 512) :
    Cert.Layer.kOut g x t T Wt br (ix2 e f)
      = max (∑ k : Fin 512, ((g (ix2 e k)
          + (if h : (t (ix2 e 0)).toNat < 512 then T (ix2 ⟨(t (ix2 e 0)).toNat, h⟩ k) else 0)) + x (ix2 e k)) * Wt (ix2 k f)
          + br (ix2 0 f)) (Ideal.ofBits .f32 0x00000000#32) := rfl

/-- The layer at element (e, f). -/
theorem layerOut_apply (a r x : Cert.Layer.SE.Idx → EReal) (W : Cert.Layer.SW.Idx → EReal) (b : Cert.Layer.SB.Idx → EReal)
    (e : Fin 156250) (f : Fin 512) :
    Cert.Layer.layerOut a r x W b (ix2 e f)
      = max (∑ k : Fin 512, ((a (ix2 e k) + r (ix2 e k)) + x (ix2 e k)) * W (ix2 f k) + b (ix1 f))
          (Ideal.ofBits .f32 0x00000000#32) := rfl

/-- The relation row at (e, k). -/
theorem relRow_apply (emb : Cert.Layer.ST.Idx → EReal) (et : Cert.Layer.SI.Idx → BitVec 32) (e : Fin 156250) (k : Fin 512) :
    Cert.Layer.relRow emb et (ix2 e k)
      = if h : (et (ix1 e)).toNat < 500 then emb (ix2 ⟨(et (ix1 e)).toNat, h⟩ k) else 0 := rfl

/-- The kernel's way of writing the layer, over the arrays the region is handed, is the layer of the arguments. -/
theorem kOut_V (c : Dev nD) :
    Cert.Layer.kOut (Gen.V (F := Ideal) m c main_v0) (Gen.V (F := Ideal) m c main_arg1) (Gen.V (F := Ideal) m c main_v3)
        (Gen.V (F := Ideal) m c main_v2) (Gen.V (F := Ideal) m c main_v5) (Gen.V (F := Ideal) m c main_v6)
      = Cert.Layer.layerOut
          (Cert.Layer.nodeRow (m ((c : Thread nD τ).loc main_arg0)) (m ((c : Thread nD τ).loc main_arg2)))
          (Cert.Layer.relRow (m ((c : Thread nD τ).loc main_arg4)) (m ((c : Thread nD τ).loc main_arg3)))
          (m ((c : Thread nD τ).loc main_arg1)) (m ((c : Thread nD τ).loc main_arg5)) (m ((c : Thread nD τ).loc main_arg6)) := by
  show Cert.Layer.kOut (G0 m c) (G1 m c) (G3 m c) (G2 m c) (G5 m c) (G6 m c)
    = Cert.Layer.layerOut (Cert.Layer.nodeRow (A0 m c) (A2 m c)) (Cert.Layer.relRow (A4 m c) (A3 m c)) (A1 m c) (A5 m c) (A6 m c)
  funext i
  obtain ⟨e, f, rfl⟩ : ∃ (e : Fin 156250) (f : Fin 512), i = ix2 e f := ⟨i 0, i 1, eq_ix2 i⟩
  rw [kOut_apply, layerOut_apply]
  refine congrArg₂ max (congrArg₂ (· + ·) (Finset.sum_congr rfl fun k _ =>
    congrArg₂ (· * ·) (congrArg₂ (· + ·) (congrArg₂ (· + ·) ?_ ?_) ?_) ?_) ?_) rfl
  · exact v0_apply m c e k
  · rw [v3_apply m c e, relRow_apply]
    exact rel_select (fun r => G2 m c (ix2 r k)) (fun r h => A4 m c (ix2 ⟨r, h⟩ k)) (fun r => v2_apply m c r k) _
  · exact congrFun (Gen.V_main_arg1 m c) (ix2 e k)
  · exact v5_apply m c k f
  · exact v6_apply m c f

end Cert.KernelIdeal.HostReads

end
-- ==== Proof.FrameIdeal.lean ====
/-
  The fused layer's run on the extended reals, point by point, and the array it leaves.

  The 156250 edge rows are cut into 153 blocks of 1024; the last block holds only 602 rows of the arrays, and the
  rest of its staging buffer holds values nothing names. Each output row of a block depends only on the same row of
  the three per-edge input blocks (and on the whole relation table, weight and bias), so the rows past the arrays'
  end never reach a row that is written back: what point `t` writes back is block `t` of ONE function of the arrays
  the region was handed, and the blocks together cover the output array.
-/
import proofs.«416538_j9509057593721_3_alg».proof.Proof.TripleIdeal
import proofs.«416538_j9509057593721_3_alg».proof.Proof.Spec
import proofs.«416538_j9509057593721_3_alg».proof.Proof.Payload
import proofs.«416538_j9509057593721_3_alg».proof.Proof.HostReads
import Idealize.ShloMosaic.Lib.Pipeline.Value
import Idealize.ShloMosaic.Lib.ValueIdx

set_option maxRecDepth 16384

noncomputable section

namespace Cert.KernelIdeal.Run

open Cert.KernelIdeal Cert.KernelIdeal.Gen Cert.KernelIdeal.Body
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The blocks over the grid -/

/-- Point `t` stages rows `1024 t …` of each per-edge array: block index `(t, 0)`, cut to the rows the array still has
    (1024 of them, 602 at the last point), all 512 columns (the edge-type column: its one column). The relation table,
    the weight and the bias are one block each. -/
theorem blocks_E : ∀ t : Fin cfg0.N,
    (win0_0.index t (0 : Fin 2) = t.val ∧ win0_0.index t (1 : Fin 2) = 0
      ∧ win0_0.xsize (grid0.coords t) (0 : Fin 2) = min 1024 (156250 - 1024 * t.val) ∧ win0_0.xsize (grid0.coords t) (1 : Fin 2) = 512)
    ∧ (win0_1.index t (0 : Fin 2) = t.val ∧ win0_1.index t (1 : Fin 2) = 0
      ∧ win0_1.xsize (grid0.coords t) (0 : Fin 2) = min 1024 (156250 - 1024 * t.val) ∧ win0_1.xsize (grid0.coords t) (1 : Fin 2) = 512)
    ∧ (win0_2.index t (0 : Fin 2) = t.val ∧ win0_2.index t (1 : Fin 2) = 0
      ∧ win0_2.xsize (grid0.coords t) (0 : Fin 2) = min 1024 (156250 - 1024 * t.val) ∧ win0_2.xsize (grid0.coords t) (1 : Fin 2) = 1)
    ∧ (win0_6.index t (0 : Fin 2) = t.val ∧ win0_6.index t (1 : Fin 2) = 0
      ∧ win0_6.xsize (grid0.coords t) (0 : Fin 2) = min 1024 (156250 - 1024 * t.val) ∧ win0_6.xsize (grid0.coords t) (1 : Fin 2) = 512) :=
  (by decide +kernel : ∀ t : Fin grid0.N, _)

theorem blocks_W : ∀ t : Fin cfg0.N,
    (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0) :=
  (by decide +kernel : ∀ t : Fin grid0.N, _)

/-! ## The arrays the region is handed, and the function of them it computes -/

def aG (c : Dev nD) : S156250x512.Idx → EReal := V m c main_v0
def aX (c : Dev nD) : S156250x512.Idx → EReal := V m c main_arg1
def aT (c : Dev nD) : S156250x1.Idx → BitVec 32 := V m c main_v3
def aR (c : Dev nD) : S512x512.Idx → EReal := V m c main_v2
def aW (c : Dev nD) : S512x512.Idx → EReal := V m c main_v5
def aB (c : Dev nD) : S1x512.Idx → EReal := V m c main_v6

/-- The whole output array as one function of the arrays the region is handed. -/
def outArr (c : Dev nD) : S156250x512.Idx → EReal :=
  Cert.Layer.kOut (aG m c) (aX m c) (aT m c) (aR m c) (aW m c) (aB m c)

/-! ## The proof data -/

/-- After the body at point `t`: each per-edge input buffer holds its block on the rows inside the array (past them,
    zero: nothing reads it), the table, weight and bias buffers their whole arrays, and the output buffer block `t` of
    `outArr` on the rows inside the array. -/
def blkG (c : Dev nD) (t : Fin cfg0.N) : S1024x512.Idx → Elt Ideal .f32 :=
  win0_0.fill (grid0.coords t) (fun _ => (0 : EReal)) (iblk m c 0 t)
def blkX (c : Dev nD) (t : Fin cfg0.N) : S1024x512.Idx → Elt Ideal .f32 :=
  win0_1.fill (grid0.coords t) (fun _ => (0 : EReal)) (iblk m c 1 t)
def blkT (c : Dev nD) (t : Fin cfg0.N) : S1024x1.Idx → Elt Ideal .i32 :=
  win0_2.fill (grid0.coords t) (fun _ => (0#32 : BitVec 32)) (iblk m c 2 t)
def blkO (c : Dev nD) (t : Fin cfg0.N) : S1024x512.Idx → Elt Ideal .f32 :=
  win0_6.fill (grid0.coords t) (fun _ => (0 : EReal)) ((win0_6.blk t).view.read (Elt Ideal) (outArr m c))

def dats (_ : Fin 1) (c : Dev nD) : Dat τ (Elt Ideal) Unit ℕ (UR sig nD τ) ℕ cfg0 c where
  A w := V m c (Pipeline.arrRef spec0 w)
  after w t := match w with
    | ⟨0, _⟩ => blkG m c t
    | ⟨1, _⟩ => blkX m c t
    | ⟨2, _⟩ => blkT m c t
    | ⟨3, _⟩ => iblk m c 3 t
    | ⟨4, _⟩ => iblk m c 4 t
    | ⟨5, _⟩ => iblk m c 5 t
    | ⟨6, _⟩ => blkO m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = blkG m c t := by dsimp only [dats]
theorem after0_1 (c : Dev nD) (t : Fin cfg0.N) : (dats m 0 c).after 1 t = blkX m c t := by dsimp only [dats]
theorem after0_2 (c : Dev nD) (t : Fin cfg0.N) : (dats m 0 c).after 2 t = blkT m c t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = blkO m c t := by dsimp only [dats]

/-! ## What the body finds -/

/-- The per-edge inputs are fetched at every point: the block on the rows inside the array, anything past them. -/
theorem before_0 (c : Dev nD) (t : Fin cfg0.N) (d) :
    (dats m 0 c).before 0 t d = win0_0.fill (grid0.coords t) d (iblk m c 0 t) := by
  unfold Dat.before; rw [if_pos (fetch0_0 t)]; unfold Dat.fetched Dat.blockOf iblk; rw [A_eq]; try rfl
theorem before_1 (c : Dev nD) (t : Fin cfg0.N) (d) :
    (dats m 0 c).before 1 t d = win0_1.fill (grid0.coords t) d (iblk m c 1 t) := by
  unfold Dat.before; rw [if_pos (fetch0_1 t)]; unfold Dat.fetched Dat.blockOf iblk; rw [A_eq]; try rfl
theorem before_2 (c : Dev nD) (t : Fin cfg0.N) (d) :
    (dats m 0 c).before 2 t d = win0_2.fill (grid0.coords t) d (iblk m c 2 t) := by
  unfold Dat.before; rw [if_pos (fetch0_2 t)]; unfold Dat.fetched Dat.blockOf iblk; rw [A_eq]; try rfl
/-- The table, the weight and the bias are fetched once and stay. -/
theorem before_3 (c : Dev nD) (t : Fin cfg0.N) (d) : (dats m 0 c).before 3 t d = iblk m c 3 t :=
  before0_3_of m (dats m 0 c) (A_eq m c 3) (after0_3 m c) t d
theorem before_4 (c : Dev nD) (t : Fin cfg0.N) (d) : (dats m 0 c).before 4 t d = iblk m c 4 t :=
  before0_4_of m (dats m 0 c) (A_eq m c 4) (after0_4 m c) t d
theorem before_5 (c : Dev nD) (t : Fin cfg0.N) (d) : (dats m 0 c).before 5 t d = iblk m c 5 t :=
  before0_5_of m (dats m 0 c) (A_eq m c 5) (after0_5 m c) t d
/-- The output buffer was written back at the point before: it holds anything. -/
theorem before_6 (c : Dev nD) (t : Fin cfg0.N) (d) : (dats m 0 c).before 6 t d = d :=
  (dats m 0 c).before_out_reset 6 rfl t
    (if h0 : t.val = 0 then .inl h0 else .inr ⟨h0, flush0_6 _⟩) d

/-! ## A block's element, in the array -/

/-- Row `p` of point `t`'s block of the gathered node rows, when row `1024 t + p` is inside the array, is that row of
    the array — whatever fills the buffer past the array's end. -/
theorem fillG_apply (c : Dev nD) (t : Fin cfg0.N) (d : S1024x512.Idx → EReal) (p : Fin 1024) (k : Fin 512)
    (hp : 1024 * t.val + p.val < 156250) :
    win0_0.fill (grid0.coords t) d (iblk m c 0 t) (ix2 p k) = aG m c (ix2 ⟨1024 * t.val + p.val, hp⟩ k) := by
  obtain ⟨⟨i0, i1, x0, x1⟩, -, -, -⟩ := blocks_E t
  obtain ⟨y, hy, y0, y1⟩ : ∃ y : (win0_0.xblock (grid0.coords t)).Idx,
      (ix2 p k : S1024x512.Idx) = win0_0.xinj (grid0.coords t) y ∧ (y 0).val = p.val ∧ (y 1).val = k.val :=
    ⟨fun a => ⟨(ix2 p k a).val, by
        match a with
        | ⟨0, _⟩ => show p.val < win0_0.xsize (grid0.coords t) (0 : Fin 2); rw [x0]; exact lt_min p.isLt (by omega)
        | ⟨1, _⟩ => show k.val < win0_0.xsize (grid0.coords t) (1 : Fin 2); rw [x1]; exact k.isLt⟩,
      funext fun a => Fin.ext rfl, rfl, rfl⟩
  rw [hy, win0_0.fill_xinj]
  show V m c main_v0 (((cfg0.win 0).blk t).view.emb y) = V m c main_v0 (ix2 ⟨1024 * t.val + p.val, hp⟩ k)
  refine congrArg (V m c main_v0) (funext fun a => Fin.ext ?_)
  match a with
  | ⟨0, _⟩ => show win0_0.index t (0 : Fin 2) * 1024 + 1 * (y 0).val = 1024 * t.val + p.val; rw [i0, y0]; omega
  | ⟨1, _⟩ => show win0_0.index t (1 : Fin 2) * 512 + 1 * (y 1).val = k.val; rw [i1, y1]; omega

/-- The same for the edge features. -/
theorem fillX_apply (c : Dev nD) (t : Fin cfg0.N) (d : S1024x512.Idx → EReal) (p : Fin 1024) (k : Fin 512)
    (hp : 1024 * t.val + p.val < 156250) :
    win0_1.fill (grid0.coords t) d (iblk m c 1 t) (ix2 p k) = aX m c (ix2 ⟨1024 * t.val + p.val, hp⟩ k) := by
  obtain ⟨-, ⟨i0, i1, x0, x1⟩, -, -⟩ := blocks_E t
  obtain ⟨y, hy, y0, y1⟩ : ∃ y : (win0_1.xblock (grid0.coords t)).Idx,
      (ix2 p k : S1024x512.Idx) = win0_1.xinj (grid0.coords t) y ∧ (y 0).val = p.val ∧ (y 1).val = k.val :=
    ⟨fun a => ⟨(ix2 p k a).val, by
        match a with
        | ⟨0, _⟩ => show p.val < win0_1.xsize (grid0.coords t) (0 : Fin 2); rw [x0]; exact lt_min p.isLt (by omega)
        | ⟨1, _⟩ => show k.val < win0_1.xsize (grid0.coords t) (1 : Fin 2); rw [x1]; exact k.isLt⟩,
      funext fun a => Fin.ext rfl, rfl, rfl⟩
  rw [hy, win0_1.fill_xinj]
  show V m c main_arg1 (((cfg0.win 1).blk t).view.emb y) = V m c main_arg1 (ix2 ⟨1024 * t.val + p.val, hp⟩ k)
  refine congrArg (V m c main_arg1) (funext fun a => Fin.ext ?_)
  match a with
  | ⟨0, _⟩ => show win0_1.index t (0 : Fin 2) * 1024 + 1 * (y 0).val = 1024 * t.val + p.val; rw [i0, y0]; omega
  | ⟨1, _⟩ => show win0_1.index t (1 : Fin 2) * 512 + 1 * (y 1).val = k.val; rw [i1, y1]; omega

/-- The same for the edge-type column. -/
theorem fillT_apply (c : Dev nD) (t : Fin cfg0.N) (d : S1024x1.Idx → BitVec 32) (p : Fin 1024)
    (hp : 1024 * t.val + p.val < 156250) :
    win0_2.fill (grid0.coords t) d (iblk m c 2 t) (ix2 p 0) = aT m c (ix2 ⟨1024 * t.val + p.val, hp⟩ 0) := by
  obtain ⟨-, -, ⟨i0, i1, x0, x1⟩, -⟩ := blocks_E t
  obtain ⟨y, hy, y0, y1⟩ : ∃ y : (win0_2.xblock (grid0.coords t)).Idx,
      (ix2 p (0 : Fin 1) : S1024x1.Idx) = win0_2.xinj (grid0.coords t) y ∧ (y 0).val = p.val ∧ (y 1).val = 0 :=
    ⟨fun a => ⟨(ix2 p (0 : Fin 1) a).val, by
        match a with
        | ⟨0, _⟩ => show p.val < win0_2.xsize (grid0.coords t) (0 : Fin 2); rw [x0]; exact lt_min p.isLt (by omega)
        | ⟨1, _⟩ => show (0 : Nat) < win0_2.xsize (grid0.coords t) (1 : Fin 2); rw [x1]; exact Nat.one_pos⟩,
      funext fun a => Fin.ext rfl, rfl, rfl⟩
  rw [hy, win0_2.fill_xinj]
  show V m c main_v3 (((cfg0.win 2).blk t).view.emb y) = V m c main_v3 (ix2 ⟨1024 * t.val + p.val, hp⟩ 0)
  refine congrArg (V m c main_v3) (funext fun a => Fin.ext ?_)
  match a with
  | ⟨0, _⟩ => show win0_2.index t (0 : Fin 2) * 1024 + 1 * (y 0).val = 1024 * t.val + p.val; rw [i0, y0]; omega
  | ⟨1, _⟩ => show win0_2.index t (1 : Fin 2) * 1 + 1 * (y 1).val = 0; rw [i1, y1]

/-- The table, the weight and the bias are staged whole: a block's element is the array's. -/
theorem blkR_apply (c : Dev nD) (t : Fin cfg0.N) (r k : Fin 512) : iblk m c 3 t (ix2 r k) = aR m c (ix2 r k) := by
  obtain ⟨⟨i0, i1⟩, -, -⟩ := blocks_W t
  show V m c main_v2 (((cfg0.win 3).blk t).view.emb (ix2 r k)) = V m c main_v2 (ix2 r k)
  refine congrArg (V m c main_v2) (funext fun a => Fin.ext ?_)
  match a with
  | ⟨0, _⟩ => show win0_3.index t (0 : Fin 2) * 512 + 1 * r.val = r.val; rw [i0]; omega
  | ⟨1, _⟩ => show win0_3.index t (1 : Fin 2) * 512 + 1 * k.val = k.val; rw [i1]; omega
theorem blkW_apply (c : Dev nD) (t : Fin cfg0.N) (r k : Fin 512) : iblk m c 4 t (ix2 r k) = aW m c (ix2 r k) := by
  obtain ⟨-, ⟨i0, i1⟩, -⟩ := blocks_W t
  show V m c main_v5 (((cfg0.win 4).blk t).view.emb (ix2 r k)) = V m c main_v5 (ix2 r k)
  refine congrArg (V m c main_v5) (funext fun a => Fin.ext ?_)
  match a with
  | ⟨0, _⟩ => show win0_4.index t (0 : Fin 2) * 512 + 1 * r.val = r.val; rw [i0]; omega
  | ⟨1, _⟩ => show win0_4.index t (1 : Fin 2) * 512 + 1 * k.val = k.val; rw [i1]; omega
theorem blkB_apply (c : Dev nD) (t : Fin cfg0.N) (k : Fin 512) : iblk m c 5 t (ix2 0 k) = aB m c (ix2 0 k) := by
  obtain ⟨-, -, ⟨i0, i1⟩⟩ := blocks_W t
  show V m c main_v6 (((cfg0.win 5).blk t).view.emb (ix2 0 k)) = V m c main_v6 (ix2 0 k)
  refine congrArg (V m c main_v6) (funext fun a => Fin.ext ?_)
  match a with
  | ⟨0, _⟩ => show win0_5.index t (0 : Fin 2) * 1 + 1 * 0 = 0; rw [i0]
  | ⟨1, _⟩ => show win0_5.index t (1 : Fin 2) * 512 + 1 * k.val = k.val; rw [i1]; omega

/-! ## What a point writes back -/

/-- Row `p` of the stored block, when row `1024 t + p` is inside the array, is that row of `outArr`, whatever the
    per-edge input buffers hold past the array's end: it reads row `p` of each per-edge input block and nothing else
    of them. -/
theorem out_row (c : Dev nD) (t : Fin cfg0.N) (d0 d1 : S1024x512.Idx → EReal) (d2 : S1024x1.Idx → BitVec 32)
    (p : Fin 1024) (q : Fin 512) (hrow : 1024 * t.val + p.val < 156250) :
    outBlk (F := Ideal) (win0_0.fill (grid0.coords t) d0 (iblk m c 0 t)) (win0_1.fill (grid0.coords t) d1 (iblk m c 1 t))
        (win0_2.fill (grid0.coords t) d2 (iblk m c 2 t)) (iblk m c 3 t) (iblk m c 4 t) (iblk m c 5 t) (ix2 p q)
      = outArr m c (ix2 ⟨1024 * t.val + p.val, hrow⟩ q) := by
  rw [outBlk_eq, Cert.KernelIdeal.Pay.pay_apply]
  simp only [fillG_apply m c t d0 p _ hrow, fillX_apply m c t d1 p _ hrow, fillT_apply m c t d2 p hrow, blkR_apply, blkW_apply,
    blkB_apply]
  rfl

/-- A block whose rows inside the array are rows of `outArr` is, cut to those rows, block `t` of `outArr`. -/
theorem cut_eq_of_rows (c : Dev nD) (t : Fin cfg0.N) (X : S1024x512.Idx → EReal)
    (hX : ∀ (p : Fin 1024) (q : Fin 512) (hrow : 1024 * t.val + p.val < 156250),
      X (ix2 p q) = outArr m c (ix2 ⟨1024 * t.val + p.val, hrow⟩ q)) :
    win0_6.cut (grid0.coords t) X = (win0_6.blk t).view.read (Elt Ideal) (outArr m c) := by
  obtain ⟨-, -, -, ⟨i0, i1, x0, x1⟩⟩ := blocks_E t
  funext j
  have hj0 : (j 0).val < win0_6.xsize (grid0.coords t) (0 : Fin 2) := (j 0).isLt
  have hj1 : (j 1).val < win0_6.xsize (grid0.coords t) (1 : Fin 2) := (j 1).isLt
  rw [x0] at hj0; rw [x1] at hj1
  have hp : (j 0).val < 1024 := lt_of_lt_of_le hj0 (min_le_left _ _)
  have hrow : 1024 * t.val + (j 0).val < 156250 := by
    have := lt_of_lt_of_le hj0 (min_le_right _ _); omega
  show X (win0_6.xinj (grid0.coords t) j) = outArr m c ((win0_6.blk t).view.emb j)
  rw [show win0_6.xinj (grid0.coords t) j = ix2 (⟨(j 0).val, hp⟩ : Fin 1024) (⟨(j 1).val, hj1⟩ : Fin 512) from
    funext fun a => Fin.ext (by match a with | ⟨0, _⟩ => rfl | ⟨1, _⟩ => rfl)]
  rw [hX _ _ hrow]
  refine congrArg (outArr m c) (funext fun a => Fin.ext ?_)
  match a with
  | ⟨0, _⟩ => show 1024 * t.val + (j 0).val = win0_6.index t (0 : Fin 2) * 1024 + 1 * (j 0).val; rw [i0]; omega
  | ⟨1, _⟩ => show (j 1).val = win0_6.index t (1 : Fin 2) * 512 + 1 * (j 1).val; rw [i1]; omega

theorem cut_out (c : Dev nD) (t : Fin cfg0.N) (d0 d1 : S1024x512.Idx → EReal) (d2 : S1024x1.Idx → BitVec 32) :
    win0_6.cut (grid0.coords t) (outBlk (F := Ideal) (win0_0.fill (grid0.coords t) d0 (iblk m c 0 t))
        (win0_1.fill (grid0.coords t) d1 (iblk m c 1 t)) (win0_2.fill (grid0.coords t) d2 (iblk m c 2 t))
        (iblk m c 3 t) (iblk m c 4 t) (iblk m c 5 t))
      = (win0_6.blk t).view.read (Elt Ideal) (outArr m c) :=
  cut_eq_of_rows m c t _ fun p q hrow => out_row m c t d0 d1 d2 p q hrow

/-! ## The body obligation -/

/-- At every point the body, handed the buffers as the pipeline leaves them, hands them back as the proof data says:
    the inputs unchanged, and the output's rows inside the array at block `t` of `outArr` (`cut_out`). The per-edge
    windows and the output are stated on the rows inside the array only. -/
theorem body_obligation (c : Dev nD) : BodyObligationLoose (dats m 0 c) (defs₀ (F := Ideal)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩⟩
  rw [before_0 m c t d0, before_1 m c t d1, before_2 m c t d2, before_3 m c t d3, before_4 m c t d4, before_5 m c t d5,
    before_6 m c t d6]
  iapply (sound_kernel (F := Ideal) c Set.univ (grid0.coords t)
    (win0_0.stage (cfg0.slots t 0)) (hstage0_0 ((cfg0.slots t 0).cast nbuf0_0)) (win0_1.stage (cfg0.slots t 1)) (hstage0_1 ((cfg0.slots t 1).cast nbuf0_1))
    (win0_2.stage (cfg0.slots t 2)) (hstage0_2 ((cfg0.slots t 2).cast nbuf0_2)) (win0_3.stage (cfg0.slots t 3)) (hstage0_3 ((cfg0.slots t 3).cast nbuf0_3))
    (win0_4.stage (cfg0.slots t 4)) (hstage0_4 ((cfg0.slots t 4).cast nbuf0_4)) (win0_5.stage (cfg0.slots t 5)) (hstage0_5 ((cfg0.slots t 5).cast nbuf0_5))
    (win0_6.stage (cfg0.slots t 6)) (hstage0_6 ((cfg0.slots t 6).cast nbuf0_6))
    (win0_0.fill (grid0.coords t) d0 (iblk m c 0 t)) (win0_1.fill (grid0.coords t) d1 (iblk m c 1 t))
    (win0_2.fill (grid0.coords t) d2 (iblk m c 2 t)) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  have h0 : win0_0.cut (grid0.coords t) ((dats m 0 c).after 0 t) = iblk m c 0 t := by
    rw [after0_0]; exact win0_0.cut_fill _ _ _
  have h1 : win0_1.cut (grid0.coords t) ((dats m 0 c).after 1 t) = iblk m c 1 t := by
    rw [after0_1]; exact win0_1.cut_fill _ _ _
  have h2 : win0_2.cut (grid0.coords t) ((dats m 0 c).after 2 t) = iblk m c 2 t := by
    rw [after0_2]; exact win0_2.cut_fill _ _ _
  have h6 : win0_6.cut (grid0.coords t) ((dats m 0 c).after 6 t) = (win0_6.blk t).view.read (Elt Ideal) (outArr m c) := by
    rw [after0_6]; exact win0_6.cut_fill _ _ _
  isplitl [H0]
  · iexists d0
    change _ ⊢ owns (c : Thread nD τ) (st0_0 t) fullShare (win0_0.fill (grid0.coords t) d0 (win0_0.cut (grid0.coords t) ((dats m 0 c).after 0 t)))
    rw [h0]; try iexact H0
  isplitl [H1]
  · iexists d1
    change _ ⊢ owns (c : Thread nD τ) (st0_1 t) fullShare (win0_1.fill (grid0.coords t) d1 (win0_1.cut (grid0.coords t) ((dats m 0 c).after 1 t)))
    rw [h1]; try iexact H1
  isplitl [H2]
  · iexists d2
    change _ ⊢ owns (c : Thread nD τ) (st0_2 t) fullShare (win0_2.fill (grid0.coords t) d2 (win0_2.cut (grid0.coords t) ((dats m 0 c).after 2 t)))
    rw [h2]; try iexact H2
  isplitl [H3]
  · rw [after0_3]; iexact H3
  isplitl [H4]
  · rw [after0_4]; iexact H4
  isplitl [H5]
  · rw [after0_5]; iexact H5
  · iexists outBlk (F := Ideal) (win0_0.fill (grid0.coords t) d0 (iblk m c 0 t)) (win0_1.fill (grid0.coords t) d1 (iblk m c 1 t))
      (win0_2.fill (grid0.coords t) d2 (iblk m c 2 t)) (iblk m c 3 t) (iblk m c 4 t) (iblk m c 5 t)
    change _ ⊢ owns (c : Thread nD τ) (st0_6 t) fullShare (win0_6.fill (grid0.coords t) _ (win0_6.cut (grid0.coords t) ((dats m 0 c).after 6 t)))
    rw [h6, ← cut_out m c t d0 d1 d2, win0_6.fill_cut]; try iexact H6

/-! ## The run -/

set_option backward.isDefEq.respectTransparency.types false in
/-- Every weakly fair execution of the program terminates; afterwards every staged array holds what the write-backs
    left in it and every other buffer what the region found. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The argument arrays end as they began. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-! ## The output array after the run -/

/-- What point `t` writes back is block `t` of `outArr`. -/
theorem flushed_eq (c : Dev nD) (t : Fin cfg0.N) :
    (dats m 0 c).flushed 6 t = ((cfg0.win 6).blk t).view.read (Elt Ideal) (outArr m c) := by
  show (cfg0.win 6).cut (grid0.coords t) ((dats m 0 c).after 6 t) = _
  rw [after0_6]; exact win0_6.cut_fill _ _ _

/-- An index of the output array is in point `t`'s block iff its row is one of the block's rows inside the array. -/
theorem mem_blk (t : Fin cfg0.N) (i : S156250x512.Idx) :
    i ∈ ((cfg0.win 6).blk t).view.set ↔ ∀ a : Fin 2, win0_6.index t a * S1024x512.size a ≤ (i a).val
      ∧ (i a).val < win0_6.index t a * S1024x512.size a + win0_6.xsize (grid0.coords t) a := by
  show i ∈ ((View.whole main_v7).slice (win0_6.rect t)).set ↔ _
  rw [View.set_slice_whole, Rect.mem_set_unit]
  exact Iff.rfl

/-- Row `r` of the output array lies in the block of point `r / 1024`: the blocks cover the array. -/
theorem cover (i : S156250x512.Idx) : ∃ t : Fin cfg0.N, (cfg0.win 6).flush t = true ∧ i ∈ ((cfg0.win 6).blk t).view.set := by
  have hi0 : (i 0).val < 156250 := (i 0).isLt
  have hi1 : (i 1).val < 512 := (i 1).isLt
  have hN : cfg0.N = 153 := N_0
  let t : Fin cfg0.N := ⟨(i 0).val / 1024, by rw [hN]; omega⟩
  obtain ⟨-, -, -, ⟨i0, i1, x0, x1⟩⟩ := blocks_E t
  have ht : t.val = (i 0).val / 1024 := rfl
  refine ⟨t, flush0_6 t, (mem_blk t i).mpr fun a => ?_⟩
  match a with
  | ⟨0, _⟩ =>
    show win0_6.index t (0 : Fin 2) * 1024 ≤ (i 0).val ∧ (i 0).val < win0_6.index t (0 : Fin 2) * 1024 + win0_6.xsize (grid0.coords t) (0 : Fin 2)
    rw [i0, x0, ht]
    refine ⟨by omega, ?_⟩
    rcases Nat.le_total 1024 (156250 - 1024 * ((i 0).val / 1024)) with h | h
    · rw [min_eq_left h]; omega
    · rw [min_eq_right h]; omega
  | ⟨1, _⟩ =>
    show win0_6.index t (1 : Fin 2) * 512 ≤ (i 1).val ∧ (i 1).val < win0_6.index t (1 : Fin 2) * 512 + win0_6.xsize (grid0.coords t) (1 : Fin 2)
    rw [i1, x1]; omega

/-- THE OUTPUT ARRAY after the run is `outArr` of the arrays the region was handed. -/
theorem final (c : Dev nD) : (dats m 0 c).arrAt 6 cfg0.N = outArr m c :=
  (dats m 0 c).arrAt_eq_of_cover 6 (outArr m c) (fun t _ => flushed_eq m c t) (cover)

/-! ## The run, read at the arguments -/

/-- Every weakly fair execution terminates; the result array ends holding the layer of the argument arrays (the
    function of the staged arrays above, each staged array read back to the arguments), and the arguments are kept. -/
theorem run : θ_run defs (onTc (τ := τ) (main (F := Ideal))) ⟨m, fun _ => 0, ρ⟩ (fun r => ∀ c : Dev nD,
      r.2.mem ((c.tc : Thread nD τ).loc main_v7)
        = Cert.Layer.layerOut
            (Cert.Layer.nodeRow (m ((c.tc : Thread nD τ).loc main_arg0)) (m ((c.tc : Thread nD τ).loc main_arg2)))
            (Cert.Layer.relRow (m ((c.tc : Thread nD τ).loc main_arg4)) (m ((c.tc : Thread nD τ).loc main_arg3)))
            (m ((c.tc : Thread nD τ).loc main_arg1)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨((h c).1 6).trans ((final m c).trans (Cert.KernelIdeal.HostReads.kOut_V m c)),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩)
    (run_main m ρ)

end Cert.KernelIdeal.Run

end
-- ==== Proof.RefValue.lean ====
/-
  The reference's value as the layer of the specification.

  The reference reads each per-edge row number through the wrap of a negative index (`select (idx < 0) (idx + n) idx`),
  then through the gather's clamp of the signed start index into the table. Under the index hypotheses (source indices
  non-negative, edge types in `[0, 500)`) the wrap is the identity; for the relation table the clamp is the identity too,
  and for the node table the clamp is the specification's own `min`. The reference adds `(rel + node) + edge` where the
  specification adds `(node + rel) + edge`: commutativity of addition on the extended reals. The contraction is a sum
  over the 512 features, the bias is read at the output feature, and the cut-off at zero is `max` against the float zero.
-/
import proofs.«416538_j9509057593721_3_alg».proof.Proof.Gen.ReferenceIdeal.Read
import proofs.«416538_j9509057593721_3_alg».proof.Proof.Spec
import proofs.«416538_j9509057593721_3_alg».proof.Proof.LibRowGather
import Idealize.ShloMosaic.Lib.StableHlo.Predicate
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx
  Idealize.ShloMosaic.StableHlo.Predicate

/-- The wrap of a negative index leaves a non-negative word alone. -/
theorem wrap_nonneg (w c : BitVec 32) (hw : 0 ≤ w.toInt) :
    Scalar.select (IntOp.cmpi .slt w 0#32) (IntOp.addi w c) w = w := by
  have h0 : (0#32 : BitVec 32).toInt = 0 := by decide
  have hlt : w.slt 0#32 = false := by
    simp only [BitVec.slt, h0, decide_eq_false_iff_not]; omega
  have : IntOp.cmpi .slt w 0#32 = 0#1 := by
    unfold IntOp.cmpi; simp only [hlt]; rfl
  rw [this]; exact select_zero _ _

/-- The column of wrapped edge types, read at row `p`: the edge type itself when it is non-negative. -/
theorem v5_apply (x3 : (⟨S156250, .i32⟩ : BufTy).Contents (Elt Ideal)) (p : Fin 156250) (h : 0 ≤ (x3 (ix1 p)).toInt) :
    val_main_v5 (F := Ideal) x3 (ixP p) = x3 (ix1 p) := by
  have e : idx_main_v5 (ixP p) = ix1 p := by funext a; match a with | ⟨0, _⟩ => rfl
  rw [val_main_v5_apply, e, val_main_v4_apply, val_main_v1_apply, val_main_v3_apply, val_main_v0_apply, val_main_c_apply]
  exact wrap_nonneg _ _ h

/-- The column of wrapped source indices, read at row `p`: the source index itself when it is non-negative. -/
theorem v12_apply (x2 : (⟨S156250, .i32⟩ : BufTy).Contents (Elt Ideal)) (p : Fin 156250) (h : 0 ≤ (x2 (ix1 p)).toInt) :
    val_main_v12 (F := Ideal) x2 (ixP p) = x2 (ix1 p) := by
  have e : idx_main_v12 (ixP p) = ix1 p := by funext a; match a with | ⟨0, _⟩ => rfl
  rw [val_main_v12_apply, e, val_main_v11_apply, val_main_v8_apply, val_main_v10_apply, val_main_v7_apply, val_main_c_1_apply]
  exact wrap_nonneg _ _ h

/-- A word read signed and found non-negative reads the same unsigned. -/
theorem toInt_eq_toNat_of_nonneg (w : BitVec 32) (h : 0 ≤ w.toInt) : w.toInt = (w.toNat : Int) := by
  have hlt := w.isLt
  rw [BitVec.toInt_eq_toNat_cond] at h ⊢
  by_cases hc : 2 * w.toNat < 2 ^ 32
  · rw [if_pos hc]
  · rw [if_neg hc] at h; exfalso; omega

/-- THE RELATION ROWS. The gather of the relation table at the wrapped edge types is the specification's relation row
    when the edge type lies in `[0, 500)`: wrap and clamp are both the identity there. -/
theorem v6_apply (x3 : (⟨S156250, .i32⟩ : BufTy).Contents (Elt Ideal)) (x4 : (⟨S500x512, .f32⟩ : BufTy).Contents (Elt Ideal))
    (p : Fin 156250) (q : Fin 512) (h : 0 ≤ (x3 (ix1 p)).toInt ∧ (x3 (ix1 p)).toInt < 500) :
    val_main_v6 (F := Ideal) x3 x4 (ix2 p q) = Cert.Layer.relRow x4 x3 (ix2 p q) := by
  have eij : (ix2 p q : S156250x512.Idx) = ij p q := by
    funext a; match a with | ⟨0, _⟩ => rfl | ⟨1, _⟩ => rfl
  have hnat := toInt_eq_toNat_of_nonneg _ h.1
  have hlt : (x3 (ix1 p)).toNat < 500 := by omega
  unfold val_main_v6
  have hv := v5_apply x3 p h.1
  rw [eij, Cert.LibRowGather.gather_rows _ rfl rfl rfl rfl rfl x4 _ p q (by decide)]
  show _ = dite ((x3 (ix1 p)).toNat < 500) (fun h => x4 (ix2 ⟨(x3 (ix1 p)).toNat, h⟩ q)) (fun _ => 0)
  rw [dif_pos hlt]
  congr 1
  funext a
  match a with
  | ⟨0, _⟩ =>
    apply Fin.ext
    show min (val_main_v5 (F := Ideal) x3 (ixP p)).toInt.toNat (500 - 1) = (x3 (ix1 p)).toNat
    rw [hv]; omega
  | ⟨1, _⟩ => rfl

/-- THE NODE ROWS. The gather of the node table at the wrapped source indices is the specification's node row when
    the source index is non-negative: the wrap is the identity and the clamp is the specification's `min`. -/
theorem v13_apply (x0 : (⟨S100000x512, .f32⟩ : BufTy).Contents (Elt Ideal)) (x2 : (⟨S156250, .i32⟩ : BufTy).Contents (Elt Ideal))
    (p : Fin 156250) (q : Fin 512) (h : 0 ≤ (x2 (ix1 p)).toInt) :
    val_main_v13 (F := Ideal) x0 x2 (ix2 p q) = Cert.Layer.nodeRow x0 x2 (ix2 p q) := by
  have eij : (ix2 p q : S156250x512.Idx) = ij p q := by
    funext a; match a with | ⟨0, _⟩ => rfl | ⟨1, _⟩ => rfl
  unfold val_main_v13
  have hv := v12_apply x2 p h
  rw [eij, Cert.LibRowGather.gather_rows _ rfl rfl rfl rfl rfl x0 _ p q (by decide)]
  show _ = x0 (ix2 ⟨min (x2 (ix1 p)).toInt.toNat (100000 - 1), by omega⟩ q)
  congr 1
  funext a
  match a with
  | ⟨0, _⟩ =>
    apply Fin.ext
    show min (val_main_v12 (F := Ideal) x2 (ixP p)).toInt.toNat (100000 - 1) = min (x2 (ix1 p)).toInt.toNat (100000 - 1)
    rw [hv]
  | ⟨1, _⟩ => rfl

/-- THE REFERENCE IS THE LAYER, under the index hypotheses. -/
theorem ref_eq (x0 : (⟨S100000x512, .f32⟩ : BufTy).Contents (Elt Ideal)) (x1 : (⟨S156250x512, .f32⟩ : BufTy).Contents (Elt Ideal))
    (x2 x3 : (⟨S156250, .i32⟩ : BufTy).Contents (Elt Ideal)) (x4 : (⟨S500x512, .f32⟩ : BufTy).Contents (Elt Ideal))
    (x5 : (⟨S512x512, .f32⟩ : BufTy).Contents (Elt Ideal)) (x6 : (⟨S512, .f32⟩ : BufTy).Contents (Elt Ideal))
    (hsrc : ∀ e : Fin 156250, 0 ≤ (x2 (ix1 e)).toInt)
    (het : ∀ e : Fin 156250, 0 ≤ (x3 (ix1 e)).toInt ∧ (x3 (ix1 e)).toInt < 500) :
    val_main_v20 (F := Ideal) x0 x1 x2 x3 x4 x5 x6
      = Cert.Layer.layerOut (Cert.Layer.nodeRow x0 x2) (Cert.Layer.relRow x4 x3) x1 x5 x6 := by
  funext i
  obtain ⟨p, f, rfl⟩ : ∃ p f, i = ix2 p f := ⟨i 0, i 1, eq_ix2 i⟩
  rw [val_main_v20_apply, val_main_v19_apply, val_main_v16_apply, val_main_v18_apply, val_main_v17_apply,
    val_main_call0_v0_apply, val_main_call0_cst_apply]
  have eb : idx_main_v17 (idx_main_v18 (ix2 p f)) = ix1 f := by funext a; match a with | ⟨0, _⟩ => rfl
  rw [eb]
  show max ((∑ k : Fin 512, _) + x6 (ix1 f)) (Ideal.ofBits .f32 0x00000000#32)
    = max ((∑ k : Fin 512, ((Cert.Layer.nodeRow x0 x2 (ix2 p k) + Cert.Layer.relRow x4 x3 (ix2 p k)) + x1 (ix2 p k)) * x5 (ix2 f k)) + x6 (ix1 f))
        (Ideal.ofBits .f32 0x00000000#32)
  congr 2
  refine Finset.sum_congr rfl fun k _ => ?_
  have el : lidx_main_v16 (ix2 p f) k = ix2 p k := by funext a; match a with | ⟨0, _⟩ => rfl | ⟨1, _⟩ => rfl
  have er : ridx_main_v16 (ix2 p f) k = ix2 f k := by funext a; match a with | ⟨0, _⟩ => rfl | ⟨1, _⟩ => rfl
  rw [el, er, val_main_v15_apply, val_main_v14_apply, v6_apply x3 x4 p k (het p), v13_apply x0 x2 p k (hsrc p)]
  show ((Cert.Layer.relRow x4 x3 (ix2 p k) + Cert.Layer.nodeRow x0 x2 (ix2 p k)) + x1 (ix2 p k)) * x5 (ix2 f k) = _
  rw [add_comm (Cert.Layer.relRow x4 x3 (ix2 p k))]

end Cert.ReferenceIdeal.RefValue

end
-- ==== Proof.PreDecode.lean ====
/-
  The precondition decoded: what "the printed predicate is all ones" says of the two index vectors.

  The predicate is a conjunction of scalar bits. Its last two conjuncts are `all (src ≥ 0)` and
  `all ((type ≥ 0) ∧ (type < 500))`, each an `and`-reduction of a vector of comparison bits against a broadcast
  constant. A conjunction that is one has both conjuncts one; an `and`-reduction into a single bit that is one had a one
  at every position; and a signed comparison bit that is one says the signed order of its operands.
-/
import proofs.«416538_j9509057593721_3_alg».proof.Proof.Gen.Pre_finite_inputs
import Idealize.ShloMosaic.Lib.ReduceAll
import Idealize.ShloMosaic.Lib.Affine
import Idealize.ShloMosaic.Lib.ValueIdx
import Idealize.ShloMosaic.PureOps.Ideal

noncomputable section

namespace Cert.PreDecode

open Cert.Pre_finite_inputs Cert.Pre_finite_inputs.Gen Idealize.ShloMosaic Idealize.ShloMosaic.ValueIdx

/-- The scalar shape has one index. -/
instance : Subsingleton S_.Idx := ⟨fun a b => funext fun d => d.elim0⟩

/-- THE INDEX RANGES OUT OF THE PRECONDITION: every source index is non-negative and every edge type lies in `[0, 500)`,
    both read signed. -/
theorem idx_of_pre (a0 : FVec Ideal S100000x512 .f32) (a1 : FVec Ideal S156250x512 .f32) (a2 a3 : IVec S156250 32)
    (a4 : FVec Ideal S500x512 .f32) (a5 : FVec Ideal S512x512 .f32) (a6 : FVec Ideal S512 .f32)
    (h : Cert.Pre_finite_inputs.fn (F := Ideal) a0 a1 a2 a3 a4 a5 a6 = fun _ => 1#1) :
    (∀ e : Fin 156250, 0 ≤ (a2 (ix1 e)).toInt) ∧ (∀ e : Fin 156250, 0 ≤ (a3 (ix1 e)).toInt ∧ (a3 (ix1 e)).toInt < 500) := by
  have e := congrFun h ix0
  dsimp only [fn, fn_part1, fn_part2] at e
  obtain ⟨e27, e33⟩ := IntOp.andi_eq_one.1 e
  obtain ⟨-, e26⟩ := IntOp.andi_eq_one.1 e27
  have z0 : (0#32 : BitVec 32).toInt = 0 := by decide
  have z500 : (500#32 : BitVec 32).toInt = 500 := by decide
  refine ⟨fun k => ?_, fun k => ?_⟩
  · have c : IntOp.cmpi .sge (a2 (ix1 k)) 0#32 = 1#1 := Host.reduce_andi_all _ _ _ _ _ e26 (ix1 k)
    have := IntOp.cmpi_sge.1 c
    rw [z0] at this; exact this
  · have c : IntOp.andi (IntOp.cmpi .sge (a3 (ix1 k)) 0#32) (IntOp.cmpi .slt (a3 (ix1 k)) 500#32) = 1#1 :=
      Host.reduce_andi_all _ _ _ _ _ e33 (ix1 k)
    obtain ⟨c0, c1⟩ := IntOp.andi_eq_one.1 c
    have h0 := IntOp.cmpi_sge.1 c0
    have h1 := IntOp.cmpi_slt.1 c1
    rw [z0] at h0; rw [z500] at h1
    exact ⟨h0, h1⟩

end Cert.PreDecode

end
-- ==== Proof.lean ====
/-
  A message-passing layer of a graph network, fused into one kernel, against its plain reference.

  For every edge `e` the layer adds three rows — the features of the edge's source node, the embedding of the edge's
  relation type and the edge's own features —, multiplies the sum by the transposed weight, adds the bias and cuts the
  result off below at zero. The reference looks both rows up by indexing. The kernel gathers the node rows on the host
  (clamping the index into the table), selects the relation row inside the kernel by a one-hot product against the
  relation table padded with zero rows, and runs the rest block by block over 153 blocks of 1024 edges, the last block
  reaching past the end of the arrays.

  On the extended reals the two agree wherever every source index is non-negative and every relation type lies in
  `[0, 500)` — the stated precondition: there the reference's wrap of a negative index does nothing, its clamp of the
  relation index does nothing, and the kernel's one-hot product selects exactly row `t e` of the table (a product with
  the exact `0` or `1` needs no finiteness). The three summands are added in another order (commutativity), the
  kernel's product with the transposed weight is the reference's contraction over the weight's second axis, and both
  cut off at the same float zero.

  The three frames: the kernel's runs terminate and keep the argument arrays — at machine words nothing is said of
  the output's contents; on the extended reals each point writes back one block of one function of the staged arrays,
  whatever lies in the staging buffers past the arrays' end, because an output row reads only the same row of the
  per-edge inputs —, and the reference's run is its list of host operations. Nothing was rewritten by the
  idealization, so the preservation claim is empty.
-/
import proofs.«416538_j9509057593721_3_alg».proof.Defs
import proofs.«416538_j9509057593721_3_alg».proof.Proof.Gen.Kernel
import proofs.«416538_j9509057593721_3_alg».proof.Proof.Gen.KernelIdeal
import proofs.«416538_j9509057593721_3_alg».proof.Proof.Gen.ReferenceIdeal
import proofs.«416538_j9509057593721_3_alg».proof.Proof.Gen.ReferenceIdeal.Run
import proofs.«416538_j9509057593721_3_alg».proof.Proof.Gen.ReferenceIdeal.Read
import proofs.«416538_j9509057593721_3_alg».proof.Proof.Gen.Pre_finite_inputs
import proofs.«416538_j9509057593721_3_alg».proof.Proof.FrameBits
import proofs.«416538_j9509057593721_3_alg».proof.Proof.FrameIdeal
import proofs.«416538_j9509057593721_3_alg».proof.Proof.RefValue
import proofs.«416538_j9509057593721_3_alg».proof.Proof.PreDecode
import Idealize.ShloMosaic.Adequacy
import Idealize.ShloMosaic.Init

noncomputable section

namespace Cert.Proof

open Idealize.ShloMosaic Idealize.ShloMosaic.TcCoe Idealize.SL.Sem

/-- The kernel at machine words terminates and keeps its arguments. -/
theorem frame_kernel : Cert.frame_Kernel := fun m ρ _ => Cert.Kernel.Run.frame m ρ

/-- The kernel on the extended reals terminates and keeps its arguments. -/
theorem frame_kernelIdeal : Cert.frame_KernelIdeal := fun m ρ _ => Cert.KernelIdeal.Run.frame m ρ

/-- The reference terminates and keeps its arguments: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten. -/
theorem preserves : Cert.preserves_Kernel_KernelIdeal := trivial

/-- From memories that agree on the arguments, under the precondition, both programs end with the layer of the
    arguments in their result arrays: the kernel by its run read at the arguments, the reference by its run, the index
    ranges decoded from the precondition and carried across the agreement. -/
theorem algebraic : Cert.algebraic_KernelIdeal_ReferenceIdeal := by
  intro m ρ m' ρ' hpre hagree
  refine ⟨fun c => Cert.Layer.layerOut
      (Cert.Layer.nodeRow (m ((c.tc : Thread Cert.KernelIdeal.nD Cert.KernelIdeal.τ).loc Cert.KernelIdeal.main_arg0))
        (m ((c.tc : Thread Cert.KernelIdeal.nD Cert.KernelIdeal.τ).loc Cert.KernelIdeal.main_arg2)))
      (Cert.Layer.relRow (m ((c.tc : Thread Cert.KernelIdeal.nD Cert.KernelIdeal.τ).loc Cert.KernelIdeal.main_arg4))
        (m ((c.tc : Thread Cert.KernelIdeal.nD Cert.KernelIdeal.τ).loc Cert.KernelIdeal.main_arg3)))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)),
    Cert.KernelIdeal.Run.run m ρ, ?_⟩
  refine (θ_run Cert.ReferenceIdeal.defs _ _).mono (fun r h c => ⟨?_, (h c).2⟩)
    (Cert.ReferenceIdeal.Value.run (F := Ideal) m' ρ')
  obtain ⟨h0, h1, h2, h3, h4, h5, h6⟩ := hagree c
  have hi := Cert.PreDecode.idx_of_pre _ _ _ _ _ _ _ (hpre c)
  rw [(h c).1, Cert.ReferenceIdeal.Read.val_main_v20_eq, h0, h1, h2, h3, h4, h5, h6]
  exact Cert.ReferenceIdeal.RefValue.ref_eq _ _ _ _ _ _ _ hi.1 hi.2

end Cert.Proof

theorem Cert.Proof.claim : Cert.Claim :=
  ⟨Cert.Kernel.Gen.facts, Cert.KernelIdeal.Gen.facts, Cert.ReferenceIdeal.Gen.facts, Cert.Pre_finite_inputs.Gen.facts,
    Cert.Proof.frame_kernel, Cert.Proof.frame_kernelIdeal, Cert.Proof.frame_referenceIdeal, Cert.Proof.preserves,
    Cert.Proof.algebraic⟩

end
